-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v29)) (v3 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_v31) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v129) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x2 : Shape := ⟨2, ![1000000, 2]⟩
abbrev S2x4000000 : Shape := ⟨2, ![2, 4000000]⟩
abbrev S4000000x2 : Shape := ⟨2, ![4000000, 2]⟩
abbrev S_ : Shape := ⟨0, ![]⟩

class Facts : Prop where
  bcast_S_S1000000x2 : S_.BroadcastsInDim S1000000x2 (![] : Fin 0 → Fin S1000000x2.rank)
  reducesTo_S1000000x2_S_d0_1 : S1000000x2.ReducesTo [0, 1] S_
  h_S_ : 0 < S_.numel
  bcast_S_S4000000x2 : S_.BroadcastsInDim S4000000x2 (![] : Fin 0 → Fin S4000000x2.rank)
  reducesTo_S4000000x2_S_d0_1 : S4000000x2.ReducesTo [0, 1] S_

variable [Facts]

def fn {F : FTy → Type} [FloatOps F] (main_arg0 : FVec F S1000000x2 .f32) (main_arg1 : IVec S2x4000000 32) (main_arg2 : FVec F S4000000x2 .f32) : IVec S_ 1 :=
  let main_v0 : FVec F S1000000x2 .f32 := Host.absf main_arg0
  let main_cst : FVec F S_ .f32 := constant S_ .f32 0x7F800000#32
  let main_v1 : FVec F S1000000x2 .f32 := broadcastInDim S1000000x2 ![] bcast_S_S1000000x2 main_cst
  let main_v2 : IVec S1000000x2 1 := cmpf .olt main_v0 main_v1
  let main_c : IVec S_ 1 := constantI S_ 1 1#1
  let main_v3 : IVec S_ 1 := (fun x v => Host.reduce IntOp.andi x v reducesTo_S1000000x2_S_d0_1 h_S_) main_v2 main_c
  let main_v4 : FVec F S4000000x2 .f32 := Host.absf main_arg2
  let main_cst_0 : FVec F S_ .f32 := constant S_ .f32 0x7F800000#32
  let main_v5 : FVec F S4000000x2 .f32 := broadcastInDim S4000000x2 ![] bcast_S_S4000000x2 main_cst_0
  let main_v6 : IVec S4000000x2 1 := cmpf .olt main_v4 main_v5
  let main_c_1 : IVec S_ 1 := constantI S_ 1 1#1
  let main_v7 : IVec S_ 1 := (fun x v => Host.reduce IntOp.andi x v reducesTo_S4000000x2_S_d0_1 h_S_) main_v6 main_c_1
  let main_v8 : IVec S_ 1 := andi main_v3 main_v7
  main_v8
-- ==== Kernel.lean ====
abbrev S1000000x2 : Shape := ⟨2, ![1000000, 2]⟩
abbrev S2x4000000 : Shape := ⟨2, ![2, 4000000]⟩
abbrev S4000000x2 : Shape := ⟨2, ![4000000, 2]⟩
abbrev S1x4000000 : Shape := ⟨2, ![1, 4000000]⟩
abbrev S4000000 : Shape := ⟨1, ![4000000]⟩
abbrev S_ : Shape := ⟨0, ![]⟩
abbrev S4000000x1 : Shape := ⟨2, ![4000000, 1]⟩
abbrev S4000000x4 : Shape := ⟨2, ![4000000, 4]⟩
abbrev S8000x2 : Shape := ⟨2, ![8000, 2]⟩
abbrev S8000x4 : Shape := ⟨2, ![8000, 4]⟩
abbrev S8000x1 : Shape := ⟨2, ![8000, 1]⟩
abbrev S8000 : Shape := ⟨1, ![8000]⟩
abbrev S1000000x4 : Shape := ⟨2, ![1000000, 4]⟩
abbrev S1000000x1 : Shape := ⟨2, ![1000000, 1]⟩
abbrev S1000000 : Shape := ⟨1, ![1000000]⟩

abbrev nBuf : Space → Nat
  | .hbm => 41
  | .vmem => 8
  | .smem => 0
  | _ => 0

abbrev bufTy : (tb : Table) → Fin (tcTables nBuf tb) → BufTy
  | .hbm, ⟨0, _⟩ => ⟨S1000000x2, .f32⟩
  | .hbm, ⟨1, _⟩ => ⟨S2x4000000, .i32⟩
  | .hbm, ⟨2, _⟩ => ⟨S4000000x2, .f32⟩
  | .hbm, ⟨3, _⟩ => ⟨S1x4000000, .i32⟩
  | .hbm, ⟨4, _⟩ => ⟨S4000000, .i32⟩
  | .hbm, ⟨5, _⟩ => ⟨S1x4000000, .i32⟩
  | .hbm, ⟨6, _⟩ => ⟨S4000000, .i32⟩
  | .hbm, ⟨7, _⟩ => ⟨S_, .i32⟩
  | .hbm, ⟨8, _⟩ => ⟨S4000000, .i32⟩
  | .hbm, ⟨9, _⟩ => ⟨S4000000, .i1⟩
  | .hbm, ⟨10, _⟩ => ⟨S_, .i32⟩
  | .hbm, ⟨11, _⟩ => ⟨S4000000, .i32⟩
  | .hbm, ⟨12, _⟩ => ⟨S4000000, .i32⟩
  | .hbm, ⟨13, _⟩ => ⟨S4000000, .i32⟩
  | .hbm, ⟨14, _⟩ => ⟨S4000000x1, .i32⟩
  | .hbm, ⟨15, _⟩ => ⟨S4000000x2, .f32⟩
  | .hbm, ⟨16, _⟩ => ⟨S_, .i32⟩
  | .hbm, ⟨17, _⟩ => ⟨S4000000, .i32⟩
  | .hbm, ⟨18, _⟩ => ⟨S4000000, .i1⟩
  | .hbm, ⟨19, _⟩ => ⟨S_, .i32⟩
  | .hbm, ⟨20, _⟩ => ⟨S4000000, .i32⟩
  | .hbm, ⟨21, _⟩ => ⟨S4000000, .i32⟩
  | .hbm, ⟨22, _⟩ => ⟨S4000000, .i32⟩
  | .hbm, ⟨23, _⟩ => ⟨S4000000x1, .i32⟩
  | .hbm, ⟨24, _⟩ => ⟨S4000000x2, .f32⟩
  | .hbm, ⟨25, _⟩ => ⟨S4000000x4, .f32⟩
  | .hbm, ⟨26, _⟩ => ⟨S_, .f32⟩
  | .hbm, ⟨27, _⟩ => ⟨S1000000x4, .f32⟩
  | .hbm, ⟨28, _⟩ => ⟨S4000000x1, .i32⟩
  | .hbm, ⟨29, _⟩ => ⟨S1000000x4, .f32⟩
  | .hbm, ⟨30, _⟩ => ⟨S_, .f32⟩
  | .hbm, ⟨31, _⟩ => ⟨S1000000x4, .f32⟩
  | .hbm, ⟨32, _⟩ => ⟨S1000000x4, .f32⟩
  | .hbm, ⟨33, _⟩ => ⟨S1000000x1, .f32⟩
  | .hbm, ⟨34, _⟩ => ⟨S1000000, .f32⟩
  | .hbm, ⟨35, _⟩ => ⟨S1000000x1, .f32⟩
  | .hbm, ⟨36, _⟩ => ⟨S1000000, .f32⟩
  | .hbm, ⟨37, _⟩ => ⟨S1000000x1, .f32⟩
  | .hbm, ⟨38, _⟩ => ⟨S1000000, .f32⟩
  | .hbm, ⟨39, _⟩ => ⟨S1000000x1, .f32⟩
  | .hbm, ⟨40, _⟩ => ⟨S1000000, .f32⟩
  | .local _ .vmem, ⟨0, _⟩ => ⟨S8000x2, .f32⟩
  | .local _ .vmem, ⟨1, _⟩ => ⟨S8000x2, .f32⟩
  | .local _ .vmem, ⟨2, _⟩ => ⟨S8000x2, .f32⟩
  | .local _ .vmem, ⟨3, _⟩ => ⟨S8000x2, .f32⟩
  | .local _ .vmem, ⟨4, _⟩ => ⟨S8000x2, .f32⟩
  | .local _ .vmem, ⟨5, _⟩ => ⟨S8000x2, .f32⟩
  | .local _ .vmem, ⟨6, _⟩ => ⟨S8000x4, .f32⟩
  | .local _ .vmem, ⟨7, _⟩ => ⟨S8000x4, .f32⟩
  | _, _ => ⟨S1000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  inb_S8000x2_S8000x2_0_0 : ∀ a, (![0, 0] : Fin 2 → Nat) a + S8000x2.size a ≤ S8000x2.size a
  h_S8000x2 : 0 < S8000x2.numel
  shapeCasts_S8000x2_S8000x2 : S8000x2.ShapeCasts S8000x2
  slices_S8000x2_o0_0_S8000x1 : S8000x2.Slices ![0, 0] S8000x1
  shapeCasts_S8000x1_S8000 : S8000x1.ShapeCasts S8000
  slices_S8000x2_o0_1_S8000x1 : S8000x2.Slices ![0, 1] S8000x1
  natLt_1_32 : 1 < 32
  shapeCasts_S8000_S8000x1 : S8000.ShapeCasts S8000x1
  concatenates_S8000x1_S8000x1_S8000x1_S8000x1_S8000x4_d1 : Shape.Concatenates [S8000x1, S8000x1, S8000x1, S8000x1] S8000x4 1
  inb_S8000x4_S8000x4_0_0 : ∀ a, (![0, 0] : Fin 2 → Nat) a + S8000x4.size a ≤ S8000x4.size a
  h_S8000x4 : 0 < S8000x4.numel
  bcast_S_S1000000x4 : S_.BroadcastsInDim S1000000x4 (![] : Fin 0 → Fin S1000000x4.rank)
  slices_S1000000x4_S1000000x1_0_0 : S1000000x4.Slices ![0, 0] S1000000x1
  shapeCasts_S1000000x1_S1000000 : S1000000x1.ShapeCasts S1000000
  slices_S1000000x4_S1000000x1_0_1 : S1000000x4.Slices ![0, 1] S1000000x1
  slices_S1000000x4_S1000000x1_0_2 : S1000000x4.Slices ![0, 2] S1000000x1
  slices_S1000000x4_S1000000x1_0_3 : S1000000x4.Slices ![0, 3] S1000000x1
  gather_S1000000x2_S4000000x1_S4000000x2_1_0_n_n_0_1_12_wf : GatherDims.WF S1000000x2 S4000000x1 S4000000x2 [1] [0] [] [0] [] 1 ![1, 2]
  scatter_S1000000x4_S4000000x1_S4000000x4_1_0_0_1_wf : ScatterDims.WF S1000000x4 S4000000x1 S4000000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x2.size a ≤ S4000000x2.size a
  hwx0_0 : ∀ i : grid0.Coords, EltTy.bits .f32 = 32 ∨ (Rect.block (s := S4000000x2) S8000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x2.size a ≤ S4000000x2.size a
  hwx0_1 : ∀ i : grid0.Coords, EltTy.bits .f32 = 32 ∨ (Rect.block (s := S4000000x2) S8000x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x2.size a ≤ S4000000x2.size a
  hwx0_2 : ∀ i : grid0.Coords, EltTy.bits .f32 = 32 ∨ (Rect.block (s := S4000000x2) S8000x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x4.size a ≤ S4000000x4.size a
  hwx0_3 : ∀ i : grid0.Coords, EltTy.bits .f32 = 32 ∨ (Rect.block (s := S4000000x4) S8000x4.size (cc0_transform_3 i) (hinb0_3 i)).WholeWords (EltTy.packing .f32)

variable [Facts₀]

def gather_S1000000x2_S4000000x1_S4000000x2_1_0_n_n_0_1_12 : GatherDims S1000000x2 S4000000x1 S4000000x2 where
  offsetDims := [1]
  collapsedSliceDims := [0]
  operandBatchingDims := []
  startIndicesBatchingDims := []
  startIndexMap := [0]
  indexVectorDim := 1
  sliceSizes := ![1, 2]
  wf := gather_S1000000x2_S4000000x1_S4000000x2_1_0_n_n_0_1_12_wf
def scatter_S1000000x4_S4000000x1_S4000000x4_1_0_0_1 : ScatterDims S1000000x4 S4000000x1 S4000000x4 where
  updateWindowDims := [1]
  insertedWindowDims := [0]
  scatterDimsToOperandDims := [0]
  indexVectorDim := 1
  wf := scatter_S1000000x4_S4000000x1_S4000000x4_1_0_0_1_wf

abbrev win0_0 : Pipeline.Window sig grid0 :=
  Pipeline.Window.ofSpec (Memref.whole main_v10) S8000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S8000x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x2 : Shape := ⟨2, ![1000000, 2]⟩
abbrev S2x4000000 : Shape := ⟨2, ![2, 4000000]⟩
abbrev S4000000x2 : Shape := ⟨2, ![4000000, 2]⟩
abbrev S1x4000000 : Shape := ⟨2, ![1, 4000000]⟩
abbrev S4000000 : Shape := ⟨1, ![4000000]⟩
abbrev S4000000x1 : Shape := ⟨2, ![4000000, 1]⟩
abbrev S_ : Shape := ⟨0, ![]⟩
abbrev S1000000 : Shape := ⟨1, ![1000000]⟩

abbrev nBuf : Space → Nat
  | .hbm => 167
  | .vmem => 0
  | .smem => 0
  | _ => 0

abbrev hbmTy0_0 (i : Nat) : BufTy := match i % 128 with
  | 0 => ⟨S1000000x2, .f32⟩
  | 1 => ⟨S2x4000000, .i32⟩
  | 2 => ⟨S4000000x2, .f32⟩
  | 3 => ⟨S1x4000000, .i32⟩
  | 4 => ⟨S4000000, .i32⟩
  | 5 => ⟨S1x4000000, .i32⟩
  | 6 => ⟨S4000000, .i32⟩
  | 7 => ⟨S4000000x1, .f32⟩
  | 8 => ⟨S4000000, .f32⟩
  | 9 => ⟨S_, .f32⟩
  | 10 => ⟨S4000000, .f32⟩
  | 11 => ⟨S4000000, .i1⟩
  | 12 => ⟨S4000000, .f32⟩
  | 13 => ⟨S4000000x1, .f32⟩
  | 14 => ⟨S4000000, .f32⟩
  | 15 => ⟨S_, .f32⟩
  | 16 => ⟨S4000000, .f32⟩
  | 17 => ⟨S4000000, .i1⟩
  | 18 => ⟨S4000000, .f32⟩
  | 19 => ⟨S_, .i32⟩
  | 20 => ⟨S4000000, .i32⟩
  | 21 => ⟨S4000000, .i1⟩
  | 22 => ⟨S_, .i32⟩
  | 23 => ⟨S4000000, .i32⟩
  | 24 => ⟨S4000000, .i32⟩
  | 25 => ⟨S4000000, .i32⟩
  | 26 => ⟨S_, .i32⟩
  | 27 => ⟨S4000000, .i32⟩
  | 28 => ⟨S4000000, .i32⟩
  | 29 => ⟨S4000000x1, .i32⟩
  | 30 => ⟨S4000000x1, .i32⟩
  | 31 => ⟨S4000000x2, .i32⟩
  | 32 => ⟨S4000000, .f32⟩
  | 33 => ⟨S_, .i32⟩
  | 34 => ⟨S4000000, .i32⟩
  | 35 => ⟨S4000000, .i1⟩
  | 36 => ⟨S_, .i32⟩
  | 37 => ⟨S4000000, .i32⟩
  | 38 => ⟨S4000000, .i32⟩
  | 39 => ⟨S4000000, .i32⟩
  | 40 => ⟨S_, .i32⟩
  | 41 => ⟨S4000000, .i32⟩
  | 42 => ⟨S4000000, .i32⟩
  | 43 => ⟨S4000000x1, .i32⟩
  | 44 => ⟨S4000000x1, .i32⟩
  | 45 => ⟨S4000000x2, .i32⟩
  | 46 => ⟨S4000000, .f32⟩
  | 47 => ⟨S4000000, .f32⟩
  | 48 => ⟨S4000000, .f32⟩
  | 49 => ⟨S_, .f32⟩
  | 50 => ⟨S1000000, .f32⟩
  | 51 => ⟨S4000000x1, .i32⟩
  | 52 => ⟨S1000000, .f32⟩
  | 53 => ⟨S_, .f32⟩
  | 54 => ⟨S1000000, .f32⟩
  | 55 => ⟨S1000000, .f32⟩
  | 56 => ⟨S_, .i32⟩
  | 57 => ⟨S4000000, .i32⟩
  | 58 => ⟨S4000000, .i1⟩
  | 59 => ⟨S_, .i32⟩
  | 60 => ⟨S4000000, .i32⟩
  | 61 => ⟨S4000000, .i32⟩
  | 62 => ⟨S4000000, .i32⟩
  | 63 => ⟨S_, .i32⟩
  | 64 => ⟨S4000000, .i32⟩
  | 65 => ⟨S4000000, .i32⟩
  | 66 => ⟨S4000000x1, .i32⟩
  | 67 => ⟨S4000000x1, .i32⟩
  | 68 => ⟨S4000000x2, .i32⟩
  | 69 => ⟨S4000000, .f32⟩
  | 70 => ⟨S_, .i32⟩
  | 71 => ⟨S4000000, .i32⟩
  | 72 => ⟨S4000000, .i1⟩
  | 73 => ⟨S_, .i32⟩
  | 74 => ⟨S4000000, .i32⟩
  | 75 => ⟨S4000000, .i32⟩
  | 76 => ⟨S4000000, .i32⟩
  | 77 => ⟨S_, .i32⟩
  | 78 => ⟨S4000000, .i32⟩
  | 79 => ⟨S4000000, .i32⟩
  | 80 => ⟨S4000000x1, .i32⟩
  | 81 => ⟨S4000000x1, .i32⟩
  | 82 => ⟨S4000000x2, .i32⟩
  | 83 => ⟨S4000000, .f32⟩
  | 84 => ⟨S4000000, .f32⟩
  | 85 => ⟨S4000000, .f32⟩
  | 86 => ⟨S_, .f32⟩
  | 87 => ⟨S1000000, .f32⟩
  | 88 => ⟨S4000000x1, .i32⟩
  | 89 => ⟨S1000000, .f32⟩
  | 90 => ⟨S_, .f32⟩
  | 91 => ⟨S1000000, .f32⟩
  | 92 => ⟨S1000000, .f32⟩
  | 93 => ⟨S_, .i32⟩
  | 94 => ⟨S4000000, .i32⟩
  | 95 => ⟨S4000000, .i1⟩
  | 96 => ⟨S_, .i32⟩
  | 97 => ⟨S4000000, .i32⟩
  | 98 => ⟨S4000000, .i32⟩
  | 99 => ⟨S4000000, .i32⟩
  | 100 => ⟨S_, .i32⟩
  | 101 => ⟨S4000000, .i32⟩
  | 102 => ⟨S4000000, .i32⟩
  | 103 => ⟨S4000000x1, .i32⟩
  | 104 => ⟨S4000000x1, .i32⟩
  | 105 => ⟨S4000000x2, .i32⟩
  | 106 => ⟨S4000000, .f32⟩
  | 107 => ⟨S_, .i32⟩
  | 108 => ⟨S4000000, .i32⟩
  | 109 => ⟨S4000000, .i1⟩
  | 110 => ⟨S_, .i32⟩
  | 111 => ⟨S4000000, .i32⟩
  | 112 => ⟨S4000000, .i32⟩
  | 113 => ⟨S4000000, .i32⟩
  | 114 => ⟨S_, .i32⟩
  | 115 => ⟨S4000000, .i32⟩
  | 116 => ⟨S4000000, .i32⟩
  | 117 => ⟨S4000000x1, .i32⟩
  | 118 => ⟨S4000000x1, .i32⟩
  | 119 => ⟨S4000000x2, .i32⟩
  | 120 => ⟨S4000000, .f32⟩
  | 121 => ⟨S4000000, .f32⟩
  | 122 => ⟨S4000000, .f32⟩
  | 123 => ⟨S_, .f32⟩
  | 124 => ⟨S1000000, .f32⟩
  | 125 => ⟨S4000000x1, .i32⟩
  | 126 => ⟨S1000000, .f32⟩
  | 127 => ⟨S_, .f32⟩
  | _ => ⟨S1000000x2, .f32⟩

abbrev hbmTy0_1 (i : Nat) : BufTy := match i % 128 with
  | 0 => ⟨S1000000, .f32⟩
  | 1 => ⟨S1000000, .f32⟩
  | 2 => ⟨S_, .i32⟩
  | 3 => ⟨S4000000, .i32⟩
  | 4 => ⟨S4000000, .i1⟩
  | 5 => ⟨S_, .i32⟩
  | 6 => ⟨S4000000, .i32⟩
  | 7 => ⟨S4000000, .i32⟩
  | 8 => ⟨S4000000, .i32⟩
  | 9 => ⟨S_, .i32⟩
  | 10 => ⟨S4000000, .i32⟩
  | 11 => ⟨S4000000, .i32⟩
  | 12 => ⟨S4000000x1, .i32⟩
  | 13 => ⟨S4000000x1, .i32⟩
  | 14 => ⟨S4000000x2, .i32⟩
  | 15 => ⟨S4000000, .f32⟩
  | 16 => ⟨S_, .i32⟩
  | 17 => ⟨S4000000, .i32⟩
  | 18 => ⟨S4000000, .i1⟩
  | 19 => ⟨S_, .i32⟩
  | 20 => ⟨S4000000, .i32⟩
  | 21 => ⟨S4000000, .i32⟩
  | 22 => ⟨S4000000, .i32⟩
  | 23 => ⟨S_, .i32⟩
  | 24 => ⟨S4000000, .i32⟩
  | 25 => ⟨S4000000, .i32⟩
  | 26 => ⟨S4000000x1, .i32⟩
  | 27 => ⟨S4000000x1, .i32⟩
  | 28 => ⟨S4000000x2, .i32⟩
  | 29 => ⟨S4000000, .f32⟩
  | 30 => ⟨S4000000, .f32⟩
  | 31 => ⟨S4000000, .f32⟩
  | 32 => ⟨S_, .f32⟩
  | 33 => ⟨S1000000, .f32⟩
  | 34 => ⟨S4000000x1, .i32⟩
  | 35 => ⟨S1000000, .f32⟩
  | 36 => ⟨S_, .f32⟩
  | 37 => ⟨S1000000, .f32⟩
  | 38 => ⟨S1000000, .f32⟩
  | _ => ⟨S1000000x2, .f32⟩

abbrev hbmTy (i : Nat) : BufTy := match i / 128 with
  | 0 => hbmTy0_0 i
  | 1 => hbmTy0_1 i
  | _ => ⟨S1000000x2, .f32⟩

abbrev bufTy : (tb : Table) → Fin (tcTables nBuf tb) → BufTy
  | .hbm, ⟨i, _⟩ => hbmTy i
  | _, _ => ⟨S1000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_v25 : Ref sig .tc := ⟨.hbm, 34, rfl⟩
abbrev main_v26 : Ref sig .tc := ⟨.hbm, 35, rfl⟩
abbrev main_c_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_c_8 : Ref sig .tc := ⟨.hbm, 56, rfl⟩
abbrev main_v43 : Ref sig .tc := ⟨.hbm, 57, rfl⟩
abbrev main_v44 : Ref sig .tc := ⟨.hbm, 58, rfl⟩
abbrev main_c_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_10 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_11 : Ref sig .tc := ⟨.hbm, 70, rfl⟩
abbrev main_v54 : Ref sig .tc := ⟨.hbm, 71, rfl⟩
abbrev main_v55 : Ref sig .tc := ⟨.hbm, 72, rfl⟩
abbrev main_c_12 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_13 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_15 : Ref sig .tc := ⟨.hbm, 90, rfl⟩
abbrev main_v70 : Ref sig .tc := ⟨.hbm, 91, rfl⟩
abbrev main_v71 : Ref sig .tc := ⟨.hbm, 92, rfl⟩
abbrev main_c_16 : Ref sig .tc := ⟨.hbm, 93, rfl⟩
abbrev main_v72 : Ref sig .tc := ⟨.hbm, 94, rfl⟩
abbrev main_v73 : Ref sig .tc := ⟨.hbm, 95, rfl⟩
abbrev main_c_17 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c_18 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_c_19 : Ref sig .tc := ⟨.hbm, 107, rfl⟩
abbrev main_v83 : Ref sig .tc := ⟨.hbm, 108, rfl⟩
abbrev main_v84 : Ref sig .tc := ⟨.hbm, 109, rfl⟩
abbrev main_c_20 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_c_21 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_22 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_23 : Ref sig .tc := ⟨.hbm, 127, rfl⟩
abbrev main_v99 : Ref sig .tc := ⟨.hbm, 128, rfl⟩
abbrev main_v100 : Ref sig .tc := ⟨.hbm, 129, rfl⟩
abbrev main_c_24 : Ref sig .tc := ⟨.hbm, 130, rfl⟩
abbrev main_v101 : Ref sig .tc := ⟨.hbm, 131, rfl⟩
abbrev main_v102 : Ref sig .tc := ⟨.hbm, 132, rfl⟩
abbrev main_c_25 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_c_26 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_c_27 : Ref sig .tc := ⟨.hbm, 144, rfl⟩
abbrev main_v112 : Ref sig .tc := ⟨.hbm, 145, rfl⟩
abbrev main_v113 : Ref sig .tc := ⟨.hbm, 146, rfl⟩
abbrev main_c_28 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_c_29 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_cst_30 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_cst_31 : Ref sig .tc := ⟨.hbm, 164, rfl⟩
abbrev main_v128 : Ref sig .tc := ⟨.hbm, 165, rfl⟩
abbrev main_v129 : Ref sig .tc := ⟨.hbm, 166, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  slices_S4000000x2_S4000000x1_0_0 : S4000000x2.Slices ![0, 0] S4000000x1
  shapeCasts_S4000000x1_S4000000 : S4000000x1.ShapeCasts S4000000
  bcast_S_S4000000 : S_.BroadcastsInDim S4000000 (![] : Fin 0 → Fin S4000000.rank)
  slices_S4000000x2_S4000000x1_0_1 : S4000000x2.Slices ![0, 1] S4000000x1
  bcast_S4000000_S4000000x1_0 : S4000000.BroadcastsInDim S4000000x1 (![0] : Fin 1 → Fin S4000000x1.rank)
  concatenates_S4000000x1_S4000000x1_S4000000x2_d1 : Shape.Concatenates [S4000000x1, S4000000x1] S4000000x2 1
  bcast_S_S1000000 : S_.BroadcastsInDim S1000000 (![] : Fin 0 → Fin S1000000.rank)
  gather_S1000000x2_S4000000x2_S4000000_n_01_n_n_01_1_11_wf : GatherDims.WF S1000000x2 S4000000x2 S4000000 [] [0, 1] [] [0, 1] [] 1 ![1, 1]
  scatter_S1000000_S4000000x1_S4000000_n_0_0_1_wf : ScatterDims.WF S1000000 S4000000x1 S4000000 [] [0] [0] 1

variable [Facts₀]

def gather_S1000000x2_S4000000x2_S4000000_n_01_n_n_01_1_11 : GatherDims S1000000x2 S4000000x2 S4000000 where
  offsetDims := []
  collapsedSliceDims := [0, 1]
  operandBatchingDims := []
  startIndicesBatchingDims := []
  startIndexMap := [0, 1]
  indexVectorDim := 1
  sliceSizes := ![1, 1]
  wf := gather_S1000000x2_S4000000x2_S4000000_n_01_n_n_01_1_11_wf
def scatter_S1000000_S4000000x1_S4000000_n_0_0_1 : ScatterDims S1000000 S4000000x1 S4000000 where
  updateWindowDims := []
  insertedWindowDims := [0]
  scatterDimsToOperandDims := [0]
  indexVectorDim := 1
  wf := scatter_S1000000_S4000000x1_S4000000_n_0_0_1_wf

class Facts : Prop extends Facts₀ where

variable [Facts]
-- ==== Proof.Spec.lean ====
/-
  THE SPECIFICATION: what both programs compute, as one function of the three argument arrays.

  The graph has 1,000,000 nodes carrying a 2-vector x and 4,000,000 directed edges e, from src e to dst e, each with a
  2-vector attribute. For a column col of x and a direction a of the attribute, the result at node n is

      ( 0 + sum over the edges e whose source id is n of (x[dst e, col] - x[src e, col]) * [attr[e, a] != 0] ) / delta

  where delta is the float 0x38D1B717 (the single-precision value nearest 1e-4). The four results are
  (col, a) = (0, 0), (1, 0), (1, 1), (0, 1). Two conventions of the index operations enter. READING x at an id
  first wraps a negative id by the number of nodes and then clamps the result into the rows of x (the gather clamps
  every start index). ADDING INTO node n keeps only the edges whose RAW source id, read signed, is n: an id outside
  the nodes is dropped, not clamped (the scatter drops an update that leaves the operand).
-/
import Idealize.ShloMosaic.Lib.ValueIdx

noncomputable section

open scoped BigOperators

namespace Cert.Spec

open Idealize.ShloMosaic Idealize.ShloMosaic.ValueIdx

/-- The node table. -/
abbrev XT : Type := (⟨2, ![1000000, 2]⟩ : Shape).Idx → EReal
/-- The edge ids: row 0 the sources, row 1 the destinations. -/
abbrev EI : Type := IVec ⟨2, ![2, 4000000]⟩ 32
/-- The edge attributes. -/
abbrev EA : Type := (⟨2, ![4000000, 2]⟩ : Shape).Idx → EReal

/-- The raw source id of edge e. -/
def src (ei : EI) (e : Fin 4000000) : BitVec 32 := ei (ix2 (0 : Fin 2) e)
/-- The raw destination id of edge e. -/
def dst (ei : EI) (e : Fin 4000000) : BitVec 32 := ei (ix2 (1 : Fin 2) e)

/-- An id with a negative value moved up by the number of nodes. -/
def wrap (i : BitVec 32) : BitVec 32 :=
  Scalar.select (IntOp.cmpi .slt i 0#32) (IntOp.addi i 1000000#32) i

/-- The row of x an id reads: wrapped, read signed, clamped into the table. -/
def row (i : BitVec 32) : Fin 1000000 := ⟨min (wrap i).toInt.toNat (1000000 - 1), by omega⟩

/-- The multiplicative mask of edge e for direction a: 1 where the attribute is not 0, else 0. -/
def mask (ea : EA) (a : Fin 2) (e : Fin 4000000) : EReal :=
  (((Ideal.cmp .une (ea (ix2 e a)) (Ideal.ofBits .f32 0x00000000#32)).toNat : ℝ) : EReal)

/-- The difference of column col of x along edge e. -/
def diff (x : XT) (ei : EI) (col : Fin 2) (e : Fin 4000000) : EReal :=
  x (ix2 (row (dst ei e)) col) - x (ix2 (row (src ei e)) col)

/-- The term edge e adds to its source node. -/
def term (x : XT) (ei : EI) (ea : EA) (col a : Fin 2) (e : Fin 4000000) : EReal :=
  diff x ei col e * mask ea a e

/-- The result for column col and direction a, at node n. -/
def G (x : XT) (ei : EI) (ea : EA) (col a : Fin 2) : (⟨1, ![1000000]⟩ : Shape).Idx → EReal := fun n =>
  Ideal.div
    (Ideal.ofBits .f32 0x00000000#32
      + ∑ e : Fin 4000000, if (src ei e).toInt = ((n 0).val : Int) then term x ei ea col a e else 0)
    (Ideal.ofBits .f32 0x38D1B717#32)

/-- A one-bit word zero-extended to 32 bits and read signed is the bit read unsigned. -/
theorem setWidth_toInt_bit (b : BitVec 1) : ((b.setWidth 32).toInt : Int) = (b.toNat : Int) := by
  rcases BitVec.eq_zero_or_eq_one b with h | h <;> subst h <;> rfl

/-- The mask as the kernel spells it: ordered not-equal, widened to 32 bits, converted signed. -/
theorem mask_eq_sitofp (ea : EA) (a : Fin 2) (e : Fin 4000000) :
    mask ea a e
      = ((((Ideal.cmp .one (ea (ix2 e a)) (Ideal.ofBits .f32 0x00000000#32)).setWidth 32).toInt : ℝ) : EReal) := by
  unfold mask
  have h : Ideal.cmp .one (ea (ix2 e a)) (Ideal.ofBits .f32 0x00000000#32)
      = Ideal.cmp .une (ea (ix2 e a)) (Ideal.ofBits .f32 0x00000000#32) := rfl
  rw [h, setWidth_toInt_bit, Int.cast_natCast]

/-! ## The per-edge payload the kernel region writes -/

/-- Which column of x each of the four stacked columns uses: 0, 1, 1, 0. -/
def colOf (k : Fin 4) : Fin 2 := ![0, 1, 1, 0] k
/-- Which direction of the attribute masks each of the four stacked columns: 0, 0, 1, 1. -/
def dirOf (k : Fin 4) : Fin 2 := ![0, 0, 1, 1] k

/-- Stacked column k of edge e, from the rows of x gathered at the sources (xs) and at the destinations (xd) and the
    attributes: the mask of direction dirOf k times the difference of column colOf k. -/
def payloadAt (xs xd ea : EA) (e : Fin 4000000) (k : Fin 4) : EReal :=
  mask ea (dirOf k) e * (xd (ix2 e (colOf k)) - xs (ix2 e (colOf k)))

/-- The whole payload array [4000000, 4]. -/
def payload (xs xd ea : EA) : (⟨2, ![4000000, 4]⟩ : Shape).Idx → EReal := fun j =>
  payloadAt xs xd ea ⟨(j 0).val, idx2_lt0 j⟩ ⟨(j 1).val, idx2_lt1 j⟩

end Cert.Spec

end
-- ==== Proof.LibScatterRows.lean ====
/-
  Host scatter-add and gather of the ROWS of a two-axis table, read at an index, at generic sizes.

  A segment sum of data by ids into N segments lowers to one stablehlo.scatter with an add body into a zero operand: for
  data of shape [E, C] the scatter indices are the ids as a column [E, 1], the update window is the row
  (update_window_dims = [1]) and the inserted axis is the row axis (rowScatter); for data of shape [E] there is no window
  (vecScatter). At the ideal instance the result at an operand index is the operand there plus the sum of the updates
  that LAND there (Ideal.hostScatterAdd); an update lands where its start (read signed, NOT clamped) plus its window
  coordinate is inside the operand. Read at (n, k), respectively at n, both scatters are the operand plus the sum over
  the edges e whose id is n of the update at (e, k), respectively at e: one canonical form, a sum over Fin E with an
  if (hostScatterAdd_rows_apply, hostScatterAdd_vec_apply).
-/
import Idealize.ShloMosaic.Lib.ValueIdx

noncomputable section

open scoped BigOperators

namespace Cert.LibScatterRows

open Idealize.ShloMosaic Idealize.ShloMosaic.ValueIdx

/-! ## Where an update lands -/

/-- An update index j lands at the operand index i exactly when, on every operand axis, its start plus its window
    coordinate is the coordinate of i. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := Option.some.inj he
      subst hi
      exact (Int.toNat_of_nonneg (h a).1).symm
    · intro hall
      congr 1
      funext a
      apply Fin.ext
      show (d.start j idx a + (d.window j a : Int)).toNat = (i a).val
      rw [hall a]; exact Int.toNat_natCast _
  · rename_i h
    constructor
    · intro he; cases he
    · intro hall
      exact absurd (fun a => by rw [hall a]; exact ⟨Int.natCast_nonneg _, by exact_mod_cast (i a).isLt⟩) h

/-- The start-indices index of the one id of edge e: [e, 0]. -/
abbrev colIdx {E : Nat} (e : Fin E) : (⟨2, ![E, 1]⟩ : Shape).Idx := ix2 e (0 : Fin 1)

/-! ## A scatter of rows [E, C] into [N, C] at ids [E, 1] -/

section Rows
variable {N E C w : Nat}

/-- The dimension numbers of a row scatter: axis 1 of the updates is the window, axis 0 of the operand is inserted and
    is the one the id names. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

theorem rowScatter_start0 (j : (⟨2, ![E, C]⟩ : Shape).Idx) (idx : IVec ⟨2, ![E, 1]⟩ w) :
    (rowScatter N E C wf).start j idx 0 = (idx (colIdx ⟨(j 0).val, idx2_lt0 j⟩)).toInt := by
  unfold ScatterDims.start
  rw [dif_pos (show (0 : Fin 2) ∈ (rowScatter N E C wf).scatterDimsToOperandDims from List.mem_singleton.mpr rfl)]
  congr 2
  funext b; refine Fin.ext ?_
  match b with
  | ⟨0, _⟩ => rfl
  | ⟨1, _⟩ => rfl

theorem rowScatter_start1 (j : (⟨2, ![E, C]⟩ : Shape).Idx) (idx : IVec ⟨2, ![E, 1]⟩ w) :
    (rowScatter N E C wf).start j idx 1 = 0 := by
  unfold ScatterDims.start
  rw [dif_neg (show (1 : Fin 2) ∉ (rowScatter N E C wf).scatterDimsToOperandDims from
    (by decide : (1 : Fin 2) ∉ ([0] : List (Fin 2))))]

theorem rowScatter_window0 (j : (⟨2, ![E, C]⟩ : Shape).Idx) : (rowScatter N E C wf).window j 0 = 0 := by
  unfold ScatterDims.window
  rw [dif_neg (show (0 : Fin 2) ∉ (rowScatter N E C wf).sKept from
    (by decide : (0 : Fin 2) ∉ ([1] : List (Fin 2))))]

theorem rowScatter_window1 (j : (⟨2, ![E, C]⟩ : Shape).Idx) : (rowScatter N E C wf).window j 1 = (j 1).val := by
  unfold ScatterDims.window
  rw [dif_pos (show (1 : Fin 2) ∈ (rowScatter N E C wf).sKept from
    (by decide : (1 : Fin 2) ∈ ([1] : List (Fin 2))))]
  rfl

/-- The update at (e, c) lands at (n, k) exactly when the id of edge e, read signed, is n and c is k. -/
theorem rowScatter_lands (idx : IVec ⟨2, ![E, 1]⟩ w) (e : Fin E) (c : Fin C) (n : Fin N) (k : Fin C) :
    (rowScatter N E C wf).resultIdx? (ix2 e c) idx = some (ix2 n k) ↔ (idx (colIdx e)).toInt = (n.val : Int) ∧ c = k := by
  rw [resultIdx?_eq_some_iff]
  constructor
  · intro h
    have h0 := h 0
    have h1 := h 1
    rw [rowScatter_start0, rowScatter_window0] at h0
    rw [rowScatter_start1, rowScatter_window1] at h1
    have h0' : (idx (colIdx e)).toInt + ((0 : ℕ) : ℤ) = (n.val : ℤ) := h0
    have h1' : (0 : ℤ) + ((c.val : ℕ) : ℤ) = ((k.val : ℕ) : ℤ) := h1
    refine ⟨?_, Fin.ext ?_⟩
    · simpa using h0'
    · have : ((c.val : Int)) = (k.val : Int) := by simpa using h1'
      exact_mod_cast this
  · rintro ⟨h0, rfl⟩ a
    match a with
    | ⟨0, _⟩ =>
      show (rowScatter N E C wf).start (ix2 e c) idx 0 + ((rowScatter N E C wf).window (ix2 e c) 0 : Int) = _
      rw [rowScatter_start0, rowScatter_window0]
      show (idx (colIdx e)).toInt + ((0 : ℕ) : ℤ) = (n.val : ℤ)
      simpa using h0
    | ⟨1, _⟩ =>
      show (rowScatter N E C wf).start (ix2 e c) idx 1 + ((rowScatter N E C wf).window (ix2 e c) 1 : Int) = _
      rw [rowScatter_start1, rowScatter_window1]
      show (0 : ℤ) + ((c.val : ℕ) : ℤ) = ((c.val : ℕ) : ℤ)
      simp

/-- THE ROW SCATTER-ADD READ AT (n, k): the operand there plus the sum, over the edges whose id is n, of column k of
    the update. -/
theorem hostScatterAdd_rows_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowScatter N E C wf) x idx upd (ix2 n k)
      = x (ix2 n k) + ∑ e : Fin E, if (idx (colIdx e)).toInt = (n.val : Int) then upd (ix2 e k) else 0 := by
  unfold Ideal.hostScatterAdd
  congr 1
  rw [Finset.sum_filter, sum_idx2]
  refine Finset.sum_congr rfl fun e _ => ?_
  by_cases he : (idx (colIdx e)).toInt = (n.val : Int)
  · rw [if_pos he]
    rw [Finset.sum_eq_single k]
    · rw [if_pos ((rowScatter_lands wf idx e k n k).mpr ⟨he, rfl⟩)]
    · intro c _ hck
      rw [if_neg (fun h => hck ((rowScatter_lands wf idx e c n k).mp h).2)]
    · intro h; exact absurd (Finset.mem_univ k) h
  · rw [if_neg he]
    refine Finset.sum_eq_zero fun c _ => ?_
    rw [if_neg (fun h => he ((rowScatter_lands wf idx e c n k).mp h).1)]

end Rows

/-! ## A scatter of a vector [E] into [N] at ids [E, 1] -/

section Vec
variable {N E w : Nat}

/-- The dimension numbers of a vector scatter: no window; the one axis of the operand is inserted and named by the id. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1)

theorem vecScatter_start0 (j : (⟨1, ![E]⟩ : Shape).Idx) (idx : IVec ⟨2, ![E, 1]⟩ w) :
    (vecScatter N E wf).start j idx 0 = (idx (colIdx ⟨(j 0).val, (j 0).isLt⟩)).toInt := by
  unfold ScatterDims.start
  rw [dif_pos (show (0 : Fin 1) ∈ (vecScatter N E wf).scatterDimsToOperandDims from List.mem_singleton.mpr rfl)]
  congr 2
  funext b; refine Fin.ext ?_
  match b with
  | ⟨0, _⟩ => rfl
  | ⟨1, _⟩ => rfl

theorem vecScatter_window0 (j : (⟨1, ![E]⟩ : Shape).Idx) : (vecScatter N E wf).window j 0 = 0 := by
  unfold ScatterDims.window
  rw [dif_neg (show (0 : Fin 1) ∉ (vecScatter N E wf).sKept from
    (by decide : (0 : Fin 1) ∉ ([] : List (Fin 1))))]

/-- The update at e lands at n exactly when the id of edge e, read signed, is n. -/
theorem vecScatter_lands (idx : IVec ⟨2, ![E, 1]⟩ w) (e : Fin E) (n : Fin N) :
    (vecScatter N E wf).resultIdx? (ix1 e) idx = some (ix1 n) ↔ (idx (colIdx e)).toInt = (n.val : Int) := by
  rw [resultIdx?_eq_some_iff]
  constructor
  · intro h
    have h0 := h 0
    rw [vecScatter_start0, vecScatter_window0] at h0
    have h0' : (idx (colIdx e)).toInt + ((0 : ℕ) : ℤ) = (n.val : ℤ) := h0
    simpa using h0'
  · intro h0 a
    match a with
    | ⟨0, _⟩ =>
      show (vecScatter N E wf).start (ix1 e) idx 0 + ((vecScatter N E wf).window (ix1 e) 0 : Int) = _
      rw [vecScatter_start0, vecScatter_window0]
      show (idx (colIdx e)).toInt + ((0 : ℕ) : ℤ) = (n.val : ℤ)
      simpa using h0

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  exact Fintype.sum_equiv ⟨fun i => i 0, fun a => ix1 a, fun i => (eq_ix1 i).symm, fun _ => rfl⟩ f (fun a => f (ix1 a))
    (fun i => congrArg f (eq_ix1 i))

/-- THE VECTOR SCATTER-ADD READ AT n: the operand there plus the sum, over the edges whose id is n, of the update. -/
theorem hostScatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e : Fin E, if (idx (colIdx e)).toInt = (n.val : Int) then upd (ix1 e) else 0 := by
  unfold Ideal.hostScatterAdd
  congr 1
  rw [Finset.sum_filter, sum_idx1]
  refine Finset.sum_congr rfl fun e _ => ?_
  by_cases he : (idx (colIdx e)).toInt = (n.val : Int)
  · rw [if_pos he, if_pos ((vecScatter_lands wf idx e n).mpr he)]
  · rw [if_neg he, if_neg (fun h => he ((vecScatter_lands wf idx e n).mp h))]

end Vec

/-! ## Gathers of a table [N, C]: whole rows at ids [E, 1], single elements at start indices [E, 2]

Reading the table at an id lowers to a gather of whole rows (rowGather); reading it at an id and a column lowers to a
gather of single elements whose start indices are pairs (elemGather). Each start index is read signed and CLAMPED so
that the slice fits: row min id.toNat (N - 1), and for the element form column min col.toNat (C - 1). -/

section Gather
variable {N E C w : Nat} {α : Type}

/-- The start-indices index of component k of the start index of edge e: [e, k]. -/
abbrev pairIdx {E : Nat} (e : Fin E) (k : Fin 2) : (⟨2, ![E, 2]⟩ : Shape).Idx := ix2 e k

/-- The dimension numbers of a gather of whole rows. -/
abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, c): the table at the clamped id of edge e, column c. -/
theorem gather_rows_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (colIdx e)).toInt.toNat (N - 1), by omega⟩ : Fin N) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = colIdx e := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    have hs : (rowGather N E C wf).start (ix2 e c) idx 1 = 0 := by
      unfold GatherDims.start
      rw [dif_neg (show (1 : Fin 2) ∉ (rowGather N E C wf).startIndexMap from
        (by decide : (1 : Fin 2) ∉ ([0] : List (Fin 2))))]
    have ho : (rowGather N E C wf).offCoord (ix2 e c) 1 = c.val := by
      unfold GatherDims.offCoord
      rw [dif_pos ((GatherDims.mem_sKept _ _).mpr ⟨(by decide : (1 : Fin 2) ∉ ([0] : List (Fin 2))), List.not_mem_nil⟩)]
      rfl
    rw [hs, ho]; simp

/-- The dimension numbers of a gather of single elements at start indices (row, column). -/
abbrev elemGather (N E C : Nat) (wf : GatherDims.WF ⟨2, ![N, C]⟩ ⟨2, ![E, 2]⟩ ⟨1, ![E]⟩ [] [0, 1] [] [0, 1] [] 1 ![1, 1]) :
    GatherDims ⟨2, ![N, C]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- THE ELEMENT GATHER READ AT e: the table at the clamped row and the clamped column of the start index of edge e. -/
theorem gather_elem_apply (hN : 0 < N) (hC : 0 < C)
    (wf : GatherDims.WF ⟨2, ![N, C]⟩ ⟨2, ![E, 2]⟩ ⟨1, ![E]⟩ [] [0, 1] [] [0, 1] [] 1 ![1, 1])
    (x : (⟨2, ![N, C]⟩ : Shape).Idx → α) (idx : IVec ⟨2, ![E, 2]⟩ w) (e : Fin E) :
    Host.gather (elemGather N E C wf) x idx (ix1 e)
      = x (ix2 (⟨min (idx (pairIdx e 0)).toInt.toNat (N - 1), by omega⟩ : Fin N)
              (⟨min (idx (pairIdx e 1)).toInt.toNat (C - 1), by omega⟩ : Fin C)) := by
  unfold Host.gather
  congr 1
  funext a
  refine Fin.ext ?_
  match a with
  | ⟨0, _⟩ =>
    show (elemGather N E C wf).start (ix1 e) idx 0 + (elemGather N E C wf).batchCoord (ix1 e) 0
      + (elemGather N E C wf).offCoord (ix1 e) 0 = _
    rw [GatherDims.batchCoord_eq_zero _ _ _ List.not_mem_nil,
      GatherDims.offCoord_eq_zero _ _ _ (fun h => ((GatherDims.mem_sKept _ _).mp h).1
        (by decide : (0 : Fin 2) ∈ ([0, 1] : List (Fin 2))))]
    simp only [Nat.add_zero]
    unfold GatherDims.start
    rw [dif_pos (show (0 : Fin 2) ∈ (elemGather N E C wf).startIndexMap from
      (by decide : (0 : Fin 2) ∈ ([0, 1] : List (Fin 2))))]
    have hsi : (elemGather N E C wf).siIdx (ix1 e) ⟨List.idxOf (0 : Fin 2) (elemGather N E C wf).startIndexMap,
        List.idxOf_lt_length_iff.2 (by decide : (0 : Fin 2) ∈ ([0, 1] : List (Fin 2)))⟩ = pairIdx e 0 := by
      funext b; refine Fin.ext ?_
      match b with
      | ⟨0, _⟩ => rfl
      | ⟨1, _⟩ => rfl
    rw [hsi]
    rfl
  | ⟨1, _⟩ =>
    show (elemGather N E C wf).start (ix1 e) idx 1 + (elemGather N E C wf).batchCoord (ix1 e) 1
      + (elemGather N E C wf).offCoord (ix1 e) 1 = _
    rw [GatherDims.batchCoord_eq_zero _ _ _ List.not_mem_nil,
      GatherDims.offCoord_eq_zero _ _ _ (fun h => ((GatherDims.mem_sKept _ _).mp h).1
        (by decide : (1 : Fin 2) ∈ ([0, 1] : List (Fin 2))))]
    simp only [Nat.add_zero]
    unfold GatherDims.start
    rw [dif_pos (show (1 : Fin 2) ∈ (elemGather N E C wf).startIndexMap from
      (by decide : (1 : Fin 2) ∈ ([0, 1] : List (Fin 2))))]
    have hsi : (elemGather N E C wf).siIdx (ix1 e) ⟨List.idxOf (1 : Fin 2) (elemGather N E C wf).startIndexMap,
        List.idxOf_lt_length_iff.2 (by decide : (1 : Fin 2) ∈ ([0, 1] : List (Fin 2)))⟩ = pairIdx e 1 := by
      funext b; refine Fin.ext ?_
      match b with
      | ⟨0, _⟩ => rfl
      | ⟨1, _⟩ => rfl
    rw [hsi]
    rfl

end Gather

end Cert.LibScatterRows

end
-- ==== Proof.KernelHost.lean ====
/-
  THE KERNEL PROGRAM AROUND ITS REGION, read as values at the ideal instance.

  Before the region the host cuts the two rows of the edge ids, wraps each negative id by the number of nodes and gathers
  the rows of x at the sources and at the destinations (each id clamped into the table by the gather): the region's
  first two arrays. After the region the host adds the rows of the payload into the nodes at the RAW source ids (an id
  outside the nodes is dropped), divides by delta and cuts the four columns. Read at node n, column k of the result is

      (0 + sum over the edges e whose source id is n of payload (e, k)) / delta,

  and payload (e, k) = mask (dirOf k) e * (x[dst e, colOf k] - x[src e, colOf k]) is the specification's term for
  (colOf k, dirOf k) with its two factors in the other order.
-/
import proofs.«425213_j50130858279309_3_alg».proof.Proof.Gen.KernelIdeal.Frame
import proofs.«425213_j50130858279309_3_alg».proof.Proof.Spec
import proofs.«425213_j50130858279309_3_alg».proof.Proof.LibScatterRows
import Idealize.ShloMosaic.Lib.StableHlo.Run
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KHost

open Cert.KernelIdeal Cert.KernelIdeal.Gen Idealize.ShloMosaic Idealize.ShloMosaic.TcCoe
open Idealize.ShloMosaic.ValueIdx Idealize.SL.Sem Idealize.ShloMosaic.StableHlo Cert.LibScatterRows

/-! ## The host terms, and each read at an index -/

/-- The source ids as a vector: row 0 of the edge ids. -/
abbrev srcVec (ei : (⟨S2x4000000, .i32⟩ : BufTy).Contents (Elt Ideal)) : (⟨S4000000, .i32⟩ : BufTy).Contents (Elt Ideal) :=
  shapeCast _ (extractStridedSlice S1x4000000 ![0, 0] ei slices_S2x4000000_S1x4000000_0_0) shapeCasts_S1x4000000_S4000000
/-- The destination ids as a vector: row 1 of the edge ids. -/
abbrev dstVec (ei : (⟨S2x4000000, .i32⟩ : BufTy).Contents (Elt Ideal)) : (⟨S4000000, .i32⟩ : BufTy).Contents (Elt Ideal) :=
  shapeCast _ (extractStridedSlice S1x4000000 ![1, 0] ei slices_S2x4000000_S1x4000000_1_0) shapeCasts_S1x4000000_S4000000
/-- A vector of ids with the negative ones moved up by the number of nodes. -/
abbrev wrapVec (s : (⟨S4000000, .i32⟩ : BufTy).Contents (Elt Ideal)) : (⟨S4000000, .i32⟩ : BufTy).Contents (Elt Ideal) :=
  select (cmpi .slt s (broadcastInDim S4000000 ![] bcast_S_S4000000 (constantI S_ 32 0#32)))
    (addi s (broadcastInDim S4000000 ![] bcast_S_S4000000 (constantI S_ 32 1000000#32))) s
/-- The rows of x at a vector of ids. -/
abbrev rowsAt (x : (⟨S1000000x2, .f32⟩ : BufTy).Contents (Elt Ideal)) (s : (⟨S4000000, .i32⟩ : BufTy).Contents (Elt Ideal)) :
    (⟨S4000000x2, .f32⟩ : BufTy).Contents (Elt Ideal) :=
  Host.gather gather_S1000000x2_S4000000x1_S4000000x2_1_0_n_n_0_1_12 x
    (broadcastInDim S4000000x1 ![0] bcast_S4000000_S4000000x1_0 (wrapVec s))
/-- The zero array the payload is added into, -/
abbrev zeros4 : FVec Ideal S1000000x4 .f32 :=
  broadcastInDim S1000000x4 ![] bcast_S_S1000000x4 (constant (F := Ideal) S_ .f32 0x00000000#32)
/-- and the divisor delta at every (node, column). -/
abbrev delta4 : FVec Ideal S1000000x4 .f32 :=
  broadcastInDim S1000000x4 ![] bcast_S_S1000000x4 (constant (F := Ideal) S_ .f32 0x38D1B717#32)
/-- Column o of the payload added into the nodes at the ids, divided by delta. -/
abbrev tailCol (o : Nat) (hs : S1000000x4.Slices ![0, o] S1000000x1) (ids : (⟨S4000000, .i32⟩ : BufTy).Contents (Elt Ideal))
    (pay : (⟨S4000000x4, .f32⟩ : BufTy).Contents (Elt Ideal)) : (⟨S1000000, .f32⟩ : BufTy).Contents (Elt Ideal) :=
  shapeCast _ (extractStridedSlice S1000000x1 ![0, o]
    (Host.divf
      (Host.scatterAdd scatter_S1000000x4_S4000000x1_S4000000x4_1_0_0_1 zeros4
        (broadcastInDim S4000000x1 ![0] bcast_S4000000_S4000000x1_0 ids) pay)
      delta4) hs)
    shapeCasts_S1000000x1_S1000000

theorem srcVec_apply (ei : (⟨S2x4000000, .i32⟩ : BufTy).Contents (Elt Ideal)) (e : Fin 4000000) :
    srcVec ei (ix1 e) = Cert.Spec.src ei e :=
  (shapeCast_1a_a_apply _ _ e).trans
    (slice2_axis0_apply 0 ei slices_S2x4000000_S1x4000000_0_0 (0 : Fin 1) e (0 : Fin 2) rfl)

theorem dstVec_apply (ei : (⟨S2x4000000, .i32⟩ : BufTy).Contents (Elt Ideal)) (e : Fin 4000000) :
    dstVec ei (ix1 e) = Cert.Spec.dst ei e :=
  (shapeCast_1a_a_apply _ _ e).trans
    (slice2_axis0_apply 1 ei slices_S2x4000000_S1x4000000_1_0 (0 : Fin 1) e (1 : Fin 2) rfl)

/-- The column [E, 1] of a vector of ids reads the vector. -/
theorem idCol_apply (s : (⟨S4000000, .i32⟩ : BufTy).Contents (Elt Ideal)) (e : Fin 4000000) :
    broadcastInDim S4000000x1 ![0] bcast_S4000000_S4000000x1_0 s (colIdx e) = s (ix1 e) :=
  broadcastInDim_apply _ _ s (colIdx e) (ix1 e) (fun a => by
    match a with
    | ⟨0, _⟩ =>
      show e.val = if (4000000 : ℕ) = 1 then 0 else e.val
      rw [if_neg (by decide)])

theorem wrapVec_apply (s : (⟨S4000000, .i32⟩ : BufTy).Contents (Elt Ideal)) (e : Fin 4000000) :
    wrapVec s (ix1 e) = Cert.Spec.wrap (s (ix1 e)) := rfl

/-- The rows of x at ids read at (e, c): x at the row the specification reads for that id. -/
theorem rowsAt_apply (x : (⟨S1000000x2, .f32⟩ : BufTy).Contents (Elt Ideal)) (s : (⟨S4000000, .i32⟩ : BufTy).Contents (Elt Ideal))
    (e : Fin 4000000) (c : Fin 2) : rowsAt x s (ix2 e c) = x (ix2 (Cert.Spec.row (s (ix1 e))) c) := by
  have h := gather_rows_apply (N := 1000000) (E := 4000000) (C := 2) (by decide)
    gather_S1000000x2_S4000000x1_S4000000x2_1_0_n_n_0_1_12_wf x
    (broadcastInDim S4000000x1 ![0] bcast_S4000000_S4000000x1_0 (wrapVec s)) e c
  refine h.trans (congrArg (fun r => x (ix2 r c)) (Fin.ext ?_))
  show min (broadcastInDim S4000000x1 ![0] bcast_S4000000_S4000000x1_0 (wrapVec s) (colIdx e)).toInt.toNat (1000000 - 1)
    = min (Cert.Spec.wrap (s (ix1 e))).toInt.toNat (1000000 - 1)
  rw [idCol_apply, wrapVec_apply]

/-- A column [a, 1] cast to a vector [a] reads, at i, the column at (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The host's quotient of a scatter-add by an array, at an index: the ideal quotient of the ideal scatter-add there by
    the array there (over variable arrays, so that nothing is evaluated). -/
theorem divf_scatterAdd_apply {s si u : Shape} {w : Nat} (d : ScatterDims s si u) (z D : FVec Ideal s .f32) (idx : IVec si w)
    (upd : FVec Ideal u .f32) (i : s.Idx) :
    Host.divf (Host.scatterAdd d z idx upd) D i = Ideal.div (Ideal.hostScatterAdd d z idx upd i) (D i) := rfl

/-- THE TAIL READ AT NODE n: the sum over the edges whose id is n of column k of the payload, over delta. -/
theorem tailCol_apply (o : Nat) (hs : S1000000x4.Slices ![0, o] S1000000x1) (k : Fin 4) (hk : k.val = o)
    (ids : (⟨S4000000, .i32⟩ : BufTy).Contents (Elt Ideal)) (pay : (⟨S4000000x4, .f32⟩ : BufTy).Contents (Elt Ideal))
    (n : Fin 1000000) :
    tailCol o hs ids pay (ix1 n)
      = Ideal.div (Ideal.ofBits .f32 0x00000000#32
          + ∑ e : Fin 4000000, if (ids (ix1 e)).toInt = (n.val : ℤ) then pay (ix2 e k) else 0)
        (Ideal.ofBits .f32 0x38D1B717#32) := by
  refine (shapeCast_a1_a_apply _ _ n).trans ?_
  refine (slice2_axis1_apply o _ hs n (0 : Fin 1) k (by simp [hk])).trans ?_
  have hz : zeros4 (ix2 n k) = Ideal.ofBits .f32 0x00000000#32 :=
    (broadcastInDim_apply _ bcast_S_S1000000x4 _ (ix2 n k) ix0 (fun a => a.elim0)).trans (constant_apply _ _)
  have hd : delta4 (ix2 n k) = Ideal.ofBits .f32 0x38D1B717#32 :=
    (broadcastInDim_apply _ bcast_S_S1000000x4 _ (ix2 n k) ix0 (fun a => a.elim0)).trans (constant_apply _ _)
  have hsc := hostScatterAdd_rows_apply (N := 1000000) (E := 4000000) (C := 4)
    scatter_S1000000x4_S4000000x1_S4000000x4_1_0_0_1_wf zeros4
    (broadcastInDim S4000000x1 ![0] bcast_S4000000_S4000000x1_0 ids) pay n k
  have hrec : scatter_S1000000x4_S4000000x1_S4000000x4_1_0_0_1
      = rowScatter 1000000 4000000 4 scatter_S1000000x4_S4000000x1_S4000000x4_1_0_0_1_wf := rfl
  have hops := divf_scatterAdd_apply scatter_S1000000x4_S4000000x1_S4000000x4_1_0_0_1 zeros4 delta4
    (broadcastInDim S4000000x1 ![0] bcast_S4000000_S4000000x1_0 ids) pay (ix2 n k)
  refine hops.trans ?_
  rw [hrec, hsc, hz, hd]
  refine congrArg (fun t => Ideal.div (Ideal.ofBits .f32 0x00000000#32 + t) (Ideal.ofBits .f32 0x38D1B717#32)) ?_
  refine Finset.sum_congr rfl fun e _ => ?_
  rw [idCol_apply]

/-! ## The payload of the gathered rows is the specification's term -/

theorem colOf_dirOf : (Cert.Spec.colOf 0 = 0 ∧ Cert.Spec.dirOf 0 = 0) ∧ (Cert.Spec.colOf 1 = 1 ∧ Cert.Spec.dirOf 1 = 0)
    ∧ (Cert.Spec.colOf 2 = 1 ∧ Cert.Spec.dirOf 2 = 1) ∧ (Cert.Spec.colOf 3 = 0 ∧ Cert.Spec.dirOf 3 = 1) :=
  ⟨⟨rfl, rfl⟩, ⟨rfl, rfl⟩, ⟨rfl, rfl⟩, ⟨rfl, rfl⟩⟩

/-- Column k of the payload over the rows gathered at the wrapped sources and destinations is the term of
    (colOf k, dirOf k): the same two factors, multiplied the other way round. -/
theorem payload_rows (x : Cert.Spec.XT) (ei : Cert.Spec.EI) (ea : Cert.Spec.EA) (e : Fin 4000000) (k : Fin 4) :
    Cert.Spec.payload (rowsAt x (srcVec ei)) (rowsAt x (dstVec ei)) ea (ix2 e k)
      = Cert.Spec.term x ei ea (Cert.Spec.colOf k) (Cert.Spec.dirOf k) e := by
  show Cert.Spec.payloadAt (rowsAt x (srcVec ei)) (rowsAt x (dstVec ei)) ea e k = _
  unfold Cert.Spec.payloadAt Cert.Spec.term Cert.Spec.diff
  rw [rowsAt_apply, rowsAt_apply, srcVec_apply, dstVec_apply, mul_comm]

/-- The tail over that payload, at the raw source ids, is the specification's result for (colOf k, dirOf k). -/
theorem tailCol_eq_G (o : Nat) (hs : S1000000x4.Slices ![0, o] S1000000x1) (k : Fin 4) (hk : k.val = o)
    (x : Cert.Spec.XT) (ei : Cert.Spec.EI) (ea : Cert.Spec.EA) :
    tailCol o hs (srcVec ei) (Cert.Spec.payload (rowsAt x (srcVec ei)) (rowsAt x (dstVec ei)) ea)
      = Cert.Spec.G x ei ea (Cert.Spec.colOf k) (Cert.Spec.dirOf k) := by
  funext n
  obtain ⟨j, rfl⟩ : ∃ j : Fin 1000000, n = ix1 j := ⟨n 0, eq_ix1 n⟩
  rw [tailCol_apply o hs k hk]
  unfold Cert.Spec.G
  refine congrArg (fun t => Ideal.div t (Ideal.ofBits .f32 0x38D1B717#32)) ?_
  refine congrArg (fun t => Ideal.ofBits .f32 0x00000000#32 + t) ?_
  refine Finset.sum_congr rfl fun e _ => ?_
  rw [srcVec_apply, payload_rows] <;> rfl

end Cert.KernelIdeal.KHost

end
-- ==== Proof.KernelBlocks.lean ====
/-
  THE KERNEL REGION'S OUTPUT ARRAY.

  The region runs over 500 blocks of 8000 edges. Its body reads, per block, the rows of x gathered at the sources and at
  the destinations and the edge attributes, and stores the [8000, 4] block whose column k at row r is

      [attr[r, dirOf k] != 0] * (xdst[r, colOf k] - xsrc[r, colOf k]),

  the mask spelled as the kernel spells it: the ordered not-equal comparison, zero-extended to 32 bits, converted signed.
  First the body's payload is read at (r, k) through its layout steps (a column cut out of a block, viewed as a vector,
  and back; four columns laid side by side). Then the blocks are put together: the index maps send point t to block
  (t, 0) of every window, so what point t writes back is rows 8000 t .. 8000 t + 7999 of the specification's payload array
  of the three arrays as the region finds them; the 500 blocks cover the array, so the array ends holding that payload.
-/
import proofs.«425213_j50130858279309_3_alg».proof.Proof.Gen.KernelIdeal.Frame
import proofs.«425213_j50130858279309_3_alg».proof.Proof.Spec
import Idealize.ShloMosaic.Lib.ValueIdx
import Idealize.ShloMosaic.Lib.Pipeline.Value
import Idealize.ShloMosaic.Lib.ValueLayout

set_option maxRecDepth 16384

noncomputable section

namespace Cert.KernelIdeal.KBlocks

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## Layout steps of the body, read at coordinates -/

/-- A column [a, 1] viewed as a vector [a] reads, at i, the column at (i, 0). -/
theorem shapeCast_col_vec_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector [a] viewed as a column [a, 1] reads, at (i, u), the vector at i. -/
theorem shapeCast_vec_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- Column c of an [8000, 2] block, as a vector, at row r. -/
theorem col_apply {α : Type} (X : S8000x2.Idx → α) (o : Nat)
    (hs : S8000x2.Slices ![0, o] S8000x1) (hc : S8000x1.ShapeCasts S8000) (r : Fin 8000) (c : Fin 2) (hco : c.val = o) :
    shapeCast S8000 (extractStridedSlice S8000x1 ![0, o] X hs) hc (ix1 r) = X (ix2 r c) := by
  refine (shapeCast_col_vec_apply _ hc r).trans ?_
  exact slice2_axis1_apply o X hs r (0 : Fin 1) c (by show c.val = o + 0; omega)

/-- Four unit columns laid side by side read, at (r, k), column k at row r: the four cases of k. -/
theorem concat4_hi (r : Fin 8000) (k : Fin 4) :
    ∀ b : Fin S8000x1.rank, b.cast (rfl : S8000x1.rank = S8000x4.rank) ≠ (1 : Fin S8000x4.rank) →
      ((ix2 r (0 : Fin 1) : S8000x1.Idx) b).val = ((ix2 r k : S8000x4.Idx) (b.cast rfl)).val := fun b hb => by
  match b with
  | ⟨0, _⟩ => rfl
  | ⟨1, _⟩ => exact absurd rfl hb

theorem concat4_apply0 {α : Type} (c0 c1 c2 c3 : S8000x1.Idx → α)
    (h : Shape.Concatenates [S8000x1, S8000x1, S8000x1, S8000x1] S8000x4 1) (r : Fin 8000) (hk : 0 < 4) :
    concatenate S8000x4 1 [⟨S8000x1, c0⟩, ⟨S8000x1, c1⟩, ⟨S8000x1, c2⟩, ⟨S8000x1, c3⟩] h (ix2 r (⟨0, hk⟩ : Fin 4))
      = c0 (ix2 r (0 : Fin 1)) :=
  concatenate_apply_piece (1 : Fin S8000x4.rank) [⟨S8000x1, c0⟩, ⟨S8000x1, c1⟩, ⟨S8000x1, c2⟩, ⟨S8000x1, c3⟩] h _ 0 (by simp)
    S8000x1 c0 rfl rfl 0 rfl _ (concat4_hi r _) rfl

theorem concat4_apply1 {α : Type} (c0 c1 c2 c3 : S8000x1.Idx → α)
    (h : Shape.Concatenates [S8000x1, S8000x1, S8000x1, S8000x1] S8000x4 1) (r : Fin 8000) (hk : 1 < 4) :
    concatenate S8000x4 1 [⟨S8000x1, c0⟩, ⟨S8000x1, c1⟩, ⟨S8000x1, c2⟩, ⟨S8000x1, c3⟩] h (ix2 r (⟨1, hk⟩ : Fin 4))
      = c1 (ix2 r (0 : Fin 1)) :=
  concatenate_apply_piece (1 : Fin S8000x4.rank) [⟨S8000x1, c0⟩, ⟨S8000x1, c1⟩, ⟨S8000x1, c2⟩, ⟨S8000x1, c3⟩] h _ 1 (by simp)
    S8000x1 c1 rfl rfl 1 rfl _ (concat4_hi r _) rfl

theorem concat4_apply2 {α : Type} (c0 c1 c2 c3 : S8000x1.Idx → α)
    (h : Shape.Concatenates [S8000x1, S8000x1, S8000x1, S8000x1] S8000x4 1) (r : Fin 8000) (hk : 2 < 4) :
    concatenate S8000x4 1 [⟨S8000x1, c0⟩, ⟨S8000x1, c1⟩, ⟨S8000x1, c2⟩, ⟨S8000x1, c3⟩] h (ix2 r (⟨2, hk⟩ : Fin 4))
      = c2 (ix2 r (0 : Fin 1)) :=
  concatenate_apply_piece (1 : Fin S8000x4.rank) [⟨S8000x1, c0⟩, ⟨S8000x1, c1⟩, ⟨S8000x1, c2⟩, ⟨S8000x1, c3⟩] h _ 2 (by simp)
    S8000x1 c2 rfl rfl 2 rfl _ (concat4_hi r _) rfl

theorem concat4_apply3 {α : Type} (c0 c1 c2 c3 : S8000x1.Idx → α)
    (h : Shape.Concatenates [S8000x1, S8000x1, S8000x1, S8000x1] S8000x4 1) (r : Fin 8000) (hk : 3 < 4) :
    concatenate S8000x4 1 [⟨S8000x1, c0⟩, ⟨S8000x1, c1⟩, ⟨S8000x1, c2⟩, ⟨S8000x1, c3⟩] h (ix2 r (⟨3, hk⟩ : Fin 4))
      = c3 (ix2 r (0 : Fin 1)) :=
  concatenate_apply_piece (1 : Fin S8000x4.rank) [⟨S8000x1, c0⟩, ⟨S8000x1, c1⟩, ⟨S8000x1, c2⟩, ⟨S8000x1, c3⟩] h _ 3 (by simp)
    S8000x1 c3 rfl rfl 3 rfl _ (concat4_hi r _) rfl

/-- THE BODY'S PAYLOAD at row r and stacked column k: the mask of direction dirOf k (ordered not-equal to zero, widened,
    converted signed) times the difference of column colOf k of the destination rows and the source rows. -/
theorem pay_apply (x0 x1 x2 : Vec Ideal S8000x2 .f32) (r : Fin 8000) (k : Fin 4) :
    Gen.k0_pay1 (F := Ideal) x0 x1 x2 (ix2 r k)
      = ((((Ideal.cmp .one (x2 (ix2 r (Cert.Spec.dirOf k))) (Ideal.ofBits .f32 0x00000000#32)).setWidth 32).toInt : ℝ) : EReal)
          * (x1 (ix2 r (Cert.Spec.colOf k)) - x0 (ix2 r (Cert.Spec.colOf k))) := by
  unfold Gen.k0_pay1
  match k with
  | ⟨0, hk⟩ =>
    refine (concat4_apply0 _ _ _ _ _ r hk).trans ?_
    refine (shapeCast_vec_col_apply _ _ r 0).trans ?_
    simp only [mulf_apply, sitofp_apply, extui_apply, cmpf_apply, broadcast_apply, subf_apply,
      col_apply _ 0 _ _ r 0 rfl, col_apply _ 1 _ _ r 1 rfl, shapeCast_self]
    rfl
  | ⟨1, hk⟩ =>
    refine (concat4_apply1 _ _ _ _ _ r hk).trans ?_
    refine (shapeCast_vec_col_apply _ _ r 0).trans ?_
    simp only [mulf_apply, sitofp_apply, extui_apply, cmpf_apply, broadcast_apply, subf_apply,
      col_apply _ 0 _ _ r 0 rfl, col_apply _ 1 _ _ r 1 rfl, shapeCast_self]
    rfl
  | ⟨2, hk⟩ =>
    refine (concat4_apply2 _ _ _ _ _ r hk).trans ?_
    refine (shapeCast_vec_col_apply _ _ r 0).trans ?_
    simp only [mulf_apply, sitofp_apply, extui_apply, cmpf_apply, broadcast_apply, subf_apply,
      col_apply _ 0 _ _ r 0 rfl, col_apply _ 1 _ _ r 1 rfl, shapeCast_self]
    rfl
  | ⟨3, hk⟩ =>
    refine (concat4_apply3 _ _ _ _ _ r hk).trans ?_
    refine (shapeCast_vec_col_apply _ _ r 0).trans ?_
    simp only [mulf_apply, sitofp_apply, extui_apply, cmpf_apply, broadcast_apply, subf_apply,
      col_apply _ 0 _ _ r 0 rfl, col_apply _ 1 _ _ r 1 rfl, shapeCast_self]
    rfl

variable (m : (ℓ : Loc nD τ sig) → Buf (Elt Ideal) ℓ)

/-! ## From the blocks to the whole payload array -/

/-- The zero offsets of the body's whole-block accesses. -/
theorem hz : (![0, 0] : Fin 2 → Nat) = fun _ => 0 := funext fun a => by fin_cases a <;> rfl

/-- The printed index maps, decided over the 500 points: every window's block index at point t is (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- One block against the whole arrays, over variables: if the three input blocks hold, at block row r, the rows
    of edge e of the three arrays, and the array index i is (e, k), then the body's payload at (r, k) is the payload
    array at i. -/
theorem pay_block (xs xd ea : Cert.Spec.EA) (b0 b1 b2 : Vec Ideal S8000x2 .f32)
    (i : (⟨2, ![4000000, 4]⟩ : Shape).Idx) (r : Fin 8000) (k : Fin 4) (e : Fin 4000000)
    (he : (i 0).val = e.val) (hk : (i 1).val = k.val)
    (h0 : ∀ q : Fin 2, b0 (ix2 r q) = xs (ix2 e q))
    (h1 : ∀ q : Fin 2, b1 (ix2 r q) = xd (ix2 e q))
    (h2 : ∀ q : Fin 2, b2 (ix2 r q) = ea (ix2 e q)) :
    Gen.k0_pay1 (F := Ideal) b0 b1 b2 (ix2 r k) = Cert.Spec.payload xs xd ea i := by
  rw [pay_apply, h0, h1, h2]
  unfold Cert.Spec.payload Cert.Spec.payloadAt
  rw [Cert.Spec.mask_eq_sitofp]
  have e1 : (⟨(i 0).val, idx2_lt0 i⟩ : Fin 4000000) = e := Fin.ext he
  have e2 : (⟨(i 1).val, idx2_lt1 i⟩ : Fin 4) = k := Fin.ext hk
  rw [e1, e2]

/-- WHAT POINT t WRITES BACK is block t of the payload array of the three arrays as the region finds them. -/
theorem flushed_eq (c : Dev nD) (t : Fin cfg0.N) :
    (dats m 0 c).flushed 3 t = ((cfg0.win 3).blk t).view.read (Elt Ideal)
      (Cert.Spec.payload (V m c main_v10) (V m c main_v17) (V m c main_arg2)) := by
  show (cfg0.win 3).cut (grid0.coords t) ((dats m 0 c).after 3 t) = _
  rw [after0_3]
  unfold out0_3
  rw [View.canon_unit_zero hz]
  simp only [View.ld_unit_zero (S := S8000x2) hz]
  obtain ⟨e00, e01, e10, e11, e20, e21, e30, e31⟩ := idx_facts t
  have ht : t.val < 500 := lt_of_lt_of_eq t.isLt N_0
  funext j
  have hj0 : (j 0).val < 8000 := (j 0).isLt
  have hj1 : (j 1).val < 4 := (j 1).isLt
  have hy : (cfg0.win 3).xinj (grid0.coords t) j = ix2 (⟨(j 0).val, hj0⟩ : Fin 8000) (⟨(j 1).val, hj1⟩ : Fin 4) :=
    funext fun a => by match a with | ⟨0, _⟩ => rfl | ⟨1, _⟩ => rfl
  show Gen.k0_pay1 (F := Ideal) (iblk m c 0 t) (iblk m c 1 t) (iblk m c 2 t) ((cfg0.win 3).xinj (grid0.coords t) j)
    = Cert.Spec.payload (V m c main_v10) (V m c main_v17) (V m c main_arg2) (((cfg0.win 3).blk t).view.emb j)
  refine (congrArg (Gen.k0_pay1 (F := Ideal) (iblk m c 0 t) (iblk m c 1 t) (iblk m c 2 t)) hy).trans ?_
  refine pay_block (V m c main_v10) (V m c main_v17) (V m c main_arg2) _ _ _ _ ⟨(j 0).val, hj0⟩ ⟨(j 1).val, hj1⟩
    ⟨8000 * t.val + (j 0).val, by omega⟩ ?_ ?_ (fun q => ?_) (fun q => ?_) (fun q => ?_)
  · show win0_3.index t (0 : Fin 2) * 8000 + 1 * (j 0).val = 8000 * t.val + (j 0).val
    omega
  · show win0_3.index t (1 : Fin 2) * 4 + 1 * (j 1).val = (j 1).val
    omega
  · have hq : q.val < 2 := q.isLt
    show V m c main_v10 (((cfg0.win 0).blk t).view.emb (ix2 (⟨(j 0).val, hj0⟩ : Fin 8000) q)) = V m c main_v10 _
    refine congrArg _ (funext fun a => Fin.ext ?_)
    match a with
    | ⟨0, _⟩ => show win0_0.index t (0 : Fin 2) * 8000 + 1 * (j 0).val = 8000 * t.val + (j 0).val; omega
    | ⟨1, _⟩ => show win0_0.index t (1 : Fin 2) * 2 + 1 * q.val = q.val; omega
  · have hq : q.val < 2 := q.isLt
    show V m c main_v17 (((cfg0.win 1).blk t).view.emb (ix2 (⟨(j 0).val, hj0⟩ : Fin 8000) q)) = V m c main_v17 _
    refine congrArg _ (funext fun a => Fin.ext ?_)
    match a with
    | ⟨0, _⟩ => show win0_1.index t (0 : Fin 2) * 8000 + 1 * (j 0).val = 8000 * t.val + (j 0).val; omega
    | ⟨1, _⟩ => show win0_1.index t (1 : Fin 2) * 2 + 1 * q.val = q.val; omega
  · have hq : q.val < 2 := q.isLt
    show V m c main_arg2 (((cfg0.win 2).blk t).view.emb (ix2 (⟨(j 0).val, hj0⟩ : Fin 8000) q)) = V m c main_arg2 _
    refine congrArg _ (funext fun a => Fin.ext ?_)
    match a with
    | ⟨0, _⟩ => show win0_2.index t (0 : Fin 2) * 8000 + 1 * (j 0).val = 8000 * t.val + (j 0).val; omega
    | ⟨1, _⟩ => show win0_2.index t (1 : Fin 2) * 2 + 1 * q.val = q.val; omega

/-- An index of the payload array is in point t's block iff each coordinate is in the block's range on its axis. -/
theorem mem_blk (t : Fin cfg0.N) (i : S4000000x4.Idx) :
    i ∈ ((cfg0.win 3).blk t).view.set ↔ ∀ a : Fin 2, win0_3.index t a * S8000x4.size a ≤ (i a).val
      ∧ (i a).val < win0_3.index t a * S8000x4.size a + S8000x4.size a := by
  show i ∈ ((View.whole main_v18).slice (win0_3.rect t)).set ↔ _
  rw [View.set_slice_whole, Rect.mem_set_unit]
  exact Iff.rfl

/-- Every index of the payload array is in some point's block: row R is in the block of point R / 8000. -/
theorem cover (i : S4000000x4.Idx) :
    ∃ t : Fin cfg0.N, (cfg0.win 3).flush t = true ∧ i ∈ ((cfg0.win 3).blk t).view.set := by
  have hi0 : (i 0).val < 4000000 := (i 0).isLt
  have hi1 : (i 1).val < 4 := (i 1).isLt
  obtain ⟨t, ht⟩ : ∃ t : Fin cfg0.N, t.val = (i 0).val / 8000 :=
    ⟨⟨(i 0).val / 8000, lt_of_lt_of_eq (by omega : (i 0).val / 8000 < 500) N_0.symm⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 8000 ≤ (i 0).val ∧ (i 0).val < win0_3.index t (0 : Fin 2) * 8000 + 8000
    omega
  | ⟨1, _⟩ =>
    show win0_3.index t (1 : Fin 2) * 4 ≤ (i 1).val ∧ (i 1).val < win0_3.index t (1 : Fin 2) * 4 + 4
    omega

/-- THE PAYLOAD ARRAY after the region: the specification's payload of the two gathered row arrays and the attributes as
    the region finds them. -/
theorem final3 (c : Dev nD) :
    (Gen.dats (F := Ideal) m 0 c).arrAt 3 cfg0.N
      = Cert.Spec.payload (Gen.V m c main_v10) (Gen.V m c main_v17) (Gen.V m c main_arg2) :=
  (dats m 0 c).arrAt_eq_of_cover 3 _ (fun t _ => flushed_eq m c t) cover

end Cert.KernelIdeal.KBlocks

end
-- ==== Proof.KernelRun.lean ====
/-
  THE KERNEL PROGRAM'S RUN, READ: its four results as the specification's functions of the arguments.

  The frame run leaves every array of the region at what the region computed and every other buffer at what the host
  lines after the region compute from those. The region's output array is the payload of its three staged arrays;
  two of those are the rows of x gathered before the region at the wrapped sources and destinations, the third is the
  attribute argument itself; the lines after the region read that payload and the raw source ids. So each result is
  the tail over the payload of the gathered rows: the specification's function.
-/
import proofs.«425213_j50130858279309_3_alg».proof.Proof.KernelHost
import proofs.«425213_j50130858279309_3_alg».proof.Proof.KernelBlocks

set_option maxRecDepth 16384

noncomputable section

namespace Cert.KernelIdeal.KRun

open Cert.KernelIdeal Cert.KernelIdeal.Gen Idealize.ShloMosaic Idealize.ShloMosaic.TcCoe
open Idealize.ShloMosaic.ValueIdx Idealize.SL.Sem Idealize.ShloMosaic.StableHlo Cert.KernelIdeal.KHost
open Idealize.ShloMosaic.Pipeline (Dat Cfg Window)

variable (m : (ℓ : Loc nD τ sig) → Buf (Elt Ideal) ℓ) (ρ : Dev nD → PrngReg)

/-! ## The host lines before the region, from any contents -/

theorem pre_v1 (W : Valuation τ sig (Elt Ideal)) :
    StableHlo.after (hostOps0 (F := Ideal)) W (Proc.devRef .tc main_v1) = srcVec (W (Proc.devRef .tc main_arg1)) := by
  after_results; rfl

theorem pre_v10 (W : Valuation τ sig (Elt Ideal)) :
    StableHlo.after (hostOps0 (F := Ideal)) W (Proc.devRef .tc main_v10)
      = rowsAt (W (Proc.devRef .tc main_arg0)) (srcVec (W (Proc.devRef .tc main_arg1))) := by
  after_results; rfl

theorem pre_v17 (W : Valuation τ sig (Elt Ideal)) :
    StableHlo.after (hostOps0 (F := Ideal)) W (Proc.devRef .tc main_v17)
      = rowsAt (W (Proc.devRef .tc main_arg0)) (dstVec (W (Proc.devRef .tc main_arg1))) := by
  after_results; rfl

/-- The region finds the rows of x gathered at the wrapped sources in its first array, -/
theorem V_v10 (c : Dev nD) :
    V m c main_v10 = rowsAt (m ((c.tc : Thread nD τ).loc main_arg0)) (srcVec (m ((c.tc : Thread nD τ).loc main_arg1))) :=
  pre_v10 (fun b => m (c, b))
/-- at the wrapped destinations in its second, -/
theorem V_v17 (c : Dev nD) :
    V m c main_v17 = rowsAt (m ((c.tc : Thread nD τ).loc main_arg0)) (dstVec (m ((c.tc : Thread nD τ).loc main_arg1))) :=
  pre_v17 (fun b => m (c, b))
/-- and the raw source ids are in their buffer. -/
theorem V0_v1 (c : Dev nD) : V0 m c (Proc.devRef .tc main_v1) = srcVec (m ((c.tc : Thread nD τ).loc main_arg1)) :=
  pre_v1 (fun b => m (c, b))

/-! ## The host lines after the region, from any contents -/

theorem tail_v25 (W : Valuation τ sig (Elt Ideal)) :
    StableHlo.after (hostOps1 (F := Ideal)) W (Proc.devRef .tc main_v25)
      = tailCol 0 slices_S1000000x4_S1000000x1_0_0 (W (Proc.devRef .tc main_v1)) (W (Proc.devRef .tc main_v18)) := by
  after_results; rfl
theorem tail_v27 (W : Valuation τ sig (Elt Ideal)) :
    StableHlo.after (hostOps1 (F := Ideal)) W (Proc.devRef .tc main_v27)
      = tailCol 1 slices_S1000000x4_S1000000x1_0_1 (W (Proc.devRef .tc main_v1)) (W (Proc.devRef .tc main_v18)) := by
  after_results; rfl
theorem tail_v29 (W : Valuation τ sig (Elt Ideal)) :
    StableHlo.after (hostOps1 (F := Ideal)) W (Proc.devRef .tc main_v29)
      = tailCol 2 slices_S1000000x4_S1000000x1_0_2 (W (Proc.devRef .tc main_v1)) (W (Proc.devRef .tc main_v18)) := by
  after_results; rfl
theorem tail_v31 (W : Valuation τ sig (Elt Ideal)) :
    StableHlo.after (hostOps1 (F := Ideal)) W (Proc.devRef .tc main_v31)
      = tailCol 3 slices_S1000000x4_S1000000x1_0_3 (W (Proc.devRef .tc main_v1)) (W (Proc.devRef .tc main_v18)) := by
  after_results; rfl

/-- What the lines after the region start from: the region-entry contents with the region's arrays as it left them. -/
abbrev WV (c : Dev nD) : Valuation τ sig (Elt Ideal) :=
  Pipeline.withArrays (cfgs (0 : Fin 1)).spec c (V0 m c) fun w => (dats m 0 c).arrAt w (cfgs (0 : Fin 1)).N

/-- There the region's output array holds the payload of the gathered rows and the attributes, -/
theorem WV_v18 (c : Dev nD) :
    WV m c (Proc.devRef .tc main_v18)
      = Cert.Spec.payload (rowsAt (m ((c.tc : Thread nD τ).loc main_arg0)) (srcVec (m ((c.tc : Thread nD τ).loc main_arg1))))
          (rowsAt (m ((c.tc : Thread nD τ).loc main_arg0)) (dstVec (m ((c.tc : Thread nD τ).loc main_arg1))))
          (m ((c.tc : Thread nD τ).loc main_arg2)) := by
  refine ((Pipeline.withArrays_arr spec0 launch0.win.arr_inj c (V0 m c) (fun w => (dats m 0 c).arrAt w cfg0.N) 3).trans ?_)
  rw [Cert.KernelIdeal.KBlocks.final3, V_v10, V_v17, V_main_arg2]
/-- and the raw source ids are still in their buffer (no array of the region). -/
theorem WV_v1 (c : Dev nD) : WV m c (Proc.devRef .tc main_v1) = srcVec (m ((c.tc : Thread nD τ).loc main_arg1)) :=
  (Pipeline.withArrays_of_ne spec0 c (V0 m c) _ main_v1 (by exact (by decide : ∀ w, Pipeline.arrRef spec0 w ≠ main_v1))).trans
    (V0_v1 m c)

/-! ## The four results -/

theorem result_v25 (c : Dev nD) :
    Pipeline.afterTail₀ cfgs (dats m) 0 (V0 m) [hostOps1] c main_v25
      = Cert.Spec.G (m ((c.tc : Thread nD τ).loc main_arg0)) (m ((c.tc : Thread nD τ).loc main_arg1)) (m ((c.tc : Thread nD τ).loc main_arg2)) 0 0 := by
  unfold Pipeline.afterTail₀
  show StableHlo.after hostOps1 (WV m c) (Proc.devRef .tc main_v25) = _
  rw [tail_v25, WV_v18, WV_v1]
  exact tailCol_eq_G 0 _ 0 rfl _ _ _
theorem result_v27 (c : Dev nD) :
    Pipeline.afterTail₀ cfgs (dats m) 0 (V0 m) [hostOps1] c main_v27
      = Cert.Spec.G (m ((c.tc : Thread nD τ).loc main_arg0)) (m ((c.tc : Thread nD τ).loc main_arg1)) (m ((c.tc : Thread nD τ).loc main_arg2)) 1 0 := by
  unfold Pipeline.afterTail₀
  show StableHlo.after hostOps1 (WV m c) (Proc.devRef .tc main_v27) = _
  rw [tail_v27, WV_v18, WV_v1]
  exact tailCol_eq_G 1 _ 1 rfl _ _ _
theorem result_v29 (c : Dev nD) :
    Pipeline.afterTail₀ cfgs (dats m) 0 (V0 m) [hostOps1] c main_v29
      = Cert.Spec.G (m ((c.tc : Thread nD τ).loc main_arg0)) (m ((c.tc : Thread nD τ).loc main_arg1)) (m ((c.tc : Thread nD τ).loc main_arg2)) 1 1 := by
  unfold Pipeline.afterTail₀
  show StableHlo.after hostOps1 (WV m c) (Proc.devRef .tc main_v29) = _
  rw [tail_v29, WV_v18, WV_v1]
  exact tailCol_eq_G 2 _ 2 rfl _ _ _
theorem result_v31 (c : Dev nD) :
    Pipeline.afterTail₀ cfgs (dats m) 0 (V0 m) [hostOps1] c main_v31
      = Cert.Spec.G (m ((c.tc : Thread nD τ).loc main_arg0)) (m ((c.tc : Thread nD τ).loc main_arg1)) (m ((c.tc : Thread nD τ).loc main_arg2)) 0 1 := by
  unfold Pipeline.afterTail₀
  show StableHlo.after hostOps1 (WV m c) (Proc.devRef .tc main_v31) = _
  rw [tail_v31, WV_v18, WV_v1]
  exact tailCol_eq_G 3 _ 3 rfl _ _ _

/-! ## The run -/

/-- Every weakly fair execution of the kernel program terminates with its four results at the specification's functions
    of the arguments as launched, and the arguments unchanged. -/
theorem run : θ_run defs (onTc (τ := τ) (main (F := Ideal))) ⟨m, fun _ => 0, ρ⟩ (fun r => ∀ c : Dev nD,
      r.2.mem ((c.tc : Thread nD τ).loc main_v25)
        = Cert.Spec.G (m ((c.tc : Thread nD τ).loc main_arg0)) (m ((c.tc : Thread nD τ).loc main_arg1)) (m ((c.tc : Thread nD τ).loc main_arg2)) 0 0
      ∧ r.2.mem ((c.tc : Thread nD τ).loc main_v27)
        = Cert.Spec.G (m ((c.tc : Thread nD τ).loc main_arg0)) (m ((c.tc : Thread nD τ).loc main_arg1)) (m ((c.tc : Thread nD τ).loc main_arg2)) 1 0
      ∧ r.2.mem ((c.tc : Thread nD τ).loc main_v29)
        = Cert.Spec.G (m ((c.tc : Thread nD τ).loc main_arg0)) (m ((c.tc : Thread nD τ).loc main_arg1)) (m ((c.tc : Thread nD τ).loc main_arg2)) 1 1
      ∧ r.2.mem ((c.tc : Thread nD τ).loc main_v31)
        = Cert.Spec.G (m ((c.tc : Thread nD τ).loc main_arg0)) (m ((c.tc : Thread nD τ).loc main_arg1)) (m ((c.tc : Thread nD τ).loc main_arg2)) 0 1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨
      ((h c).2 main_v25 (Pipeline.mem_restRefs_of main_v25 (by decide) (by decide))).trans (result_v25 m c),
      ((h c).2 main_v27 (Pipeline.mem_restRefs_of main_v27 (by decide) (by decide))).trans (result_v27 m c),
      ((h c).2 main_v29 (Pipeline.mem_restRefs_of main_v29 (by decide) (by decide))).trans (result_v29 m c),
      ((h c).2 main_v31 (Pipeline.mem_restRefs_of main_v31 (by decide) (by decide))).trans (result_v31 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.KRun

end
-- ==== Proof.RefValue.lean ====
/-
  THE REFERENCE PROGRAM'S FOUR RESULTS ARE THE SPECIFICATION.

  Each of the four results of the reference is one and the same computation with two parameters: a column constant c
  (the column of the node table read) and a mask vector m (the direction of the attribute that masks the edge):

      result = scatter-add, at the raw source ids, of (x[wrap dst, c] - x[wrap src, c]) * m into zeros, over delta.

  The module states that computation once (resV), reads it at a node as the specification's sum over the edges
  (resV_eq), and identifies each of the four results of the program with an instance of it by unfolding definitions.

  Reading at an index goes through four facts. A scalar broadcast reads the scalar, a vector broadcast to one column
  reads the vector at the row, and two one-column matrices joined along the columns read the first at column 0 and the
  second at column 1. The element gather clamps each start index, so at edge e it reads the table at the row
  min (wrapped id) (N - 1) and at the column min c 1. The scatter-add of a vector at ids reads, at node n, the operand
  plus the sum over the edges whose id, read signed, is n.
-/
import proofs.«425213_j50130858279309_3_alg».proof.Proof.Gen.ReferenceIdeal.Run
import proofs.«425213_j50130858279309_3_alg».proof.Proof.Gen.ReferenceIdeal.Read
import proofs.«425213_j50130858279309_3_alg».proof.Proof.LibScatterRows
import proofs.«425213_j50130858279309_3_alg».proof.Proof.Spec
import Idealize.ShloMosaic.Lib.ValueIdx
import Idealize.ShloMosaic.Lib.Pipeline.Value
import Idealize.ShloMosaic.Lib.ValueLayout

noncomputable section

open scoped BigOperators

namespace Cert.ReferenceIdeal.RefValue

open Cert.ReferenceIdeal Cert.ReferenceIdeal.Gen Cert.ReferenceIdeal.Read Idealize.ShloMosaic Idealize.ShloMosaic.ValueIdx
  Cert.LibScatterRows

/-! ## Layout operations read at an index -/

section Layout
variable {α : Type}

/-- A scalar broadcast to the edges reads the scalar. -/
theorem bcast0E_apply (c : S_.Idx → α) (i : S4000000.Idx) :
    broadcastInDim S4000000 ![] bcast_S_S4000000 c i = c ix0 :=
  broadcastInDim_apply _ bcast_S_S4000000 c i ix0 (fun a => a.elim0)

/-- A scalar broadcast to the nodes reads the scalar. -/
theorem bcast0N_apply (c : S_.Idx → α) (i : S1000000.Idx) :
    broadcastInDim S1000000 ![] bcast_S_S1000000 c i = c ix0 :=
  broadcastInDim_apply _ bcast_S_S1000000 c i ix0 (fun a => a.elim0)

/-- A vector over the edges broadcast to a one-column matrix reads the vector at the row. -/
theorem bcastCol_apply (y : S4000000.Idx → α) (e : Fin 4000000) (z : Fin 1) :
    broadcastInDim S4000000x1 ![0] bcast_S4000000_S4000000x1_0 y (ix2 e z) = y (ix1 e) :=
  broadcastInDim_apply _ bcast_S4000000_S4000000x1_0 y (ix2 e z) (ix1 e) (fun a => match a with
    | ⟨0, _⟩ => by show e.val = if (4000000 : Nat) = 1 then 0 else e.val; rw [if_neg (by decide)])

/-- Column 0 of two one-column matrices joined along the columns is the first. -/
theorem concat_col0 (a b : S4000000x1.Idx → α) (e : Fin 4000000) :
    concatenate S4000000x2 1 [⟨S4000000x1, a⟩, ⟨S4000000x1, b⟩] concatenates_S4000000x1_S4000000x1_S4000000x2_d1 (ix2 e (0 : Fin 2))
      = a (ix2 e (0 : Fin 1)) :=
  concatenate_pair_apply_left 1 a b concatenates_S4000000x1_S4000000x1_S4000000x2_d1 (ix2 e 0) rfl (ix2 e 0) (fun bb => match bb with
    | ⟨0, _⟩ => rfl
    | ⟨1, _⟩ => rfl)

/-- Column 1 of two one-column matrices joined along the columns is the second. -/
theorem concat_col1 (a b : S4000000x1.Idx → α) (e : Fin 4000000) :
    concatenate S4000000x2 1 [⟨S4000000x1, a⟩, ⟨S4000000x1, b⟩] concatenates_S4000000x1_S4000000x1_S4000000x2_d1 (ix2 e (1 : Fin 2))
      = b (ix2 e (0 : Fin 1)) :=
  concatenate_pair_apply_right 1 a b concatenates_S4000000x1_S4000000x1_S4000000x2_d1 (ix2 e 1) rfl rfl (ix2 e 0) (fun bb hb => match bb, hb with
    | ⟨0, _⟩, _ => rfl
    | ⟨1, _⟩, hb => absurd (Fin.ext rfl) hb)
    (by show 0 + 1 = 1; rfl)

end Layout

/-! ## The ids and the masks -/

/-- Row 0 of the edge ids, as a vector, reads the raw source id. -/
theorem v1_apply (x1 : (⟨S2x4000000, .i32⟩ : BufTy).Contents (Elt Ideal)) (e : Fin 4000000) :
    val_main_v1 (F := Ideal) x1 (ix1 e) = Cert.Spec.src x1 e := by
  rw [val_main_v1_apply, val_main_v0_apply]
  exact congrArg x1 (funext fun a => match a with
    | ⟨0, _⟩ => Fin.ext rfl
    | ⟨1, _⟩ => Fin.ext (Nat.mod_eq_of_lt e.isLt))

/-- Row 1 of the edge ids, as a vector, reads the raw destination id. -/
theorem v3_apply (x1 : (⟨S2x4000000, .i32⟩ : BufTy).Contents (Elt Ideal)) (e : Fin 4000000) :
    val_main_v3 (F := Ideal) x1 (ix1 e) = Cert.Spec.dst x1 e := by
  rw [val_main_v3_apply, val_main_v2_apply]
  exact congrArg x1 (funext fun a => match a with
    | ⟨0, _⟩ => Fin.ext rfl
    | ⟨1, _⟩ => Fin.ext (Nat.mod_eq_of_lt e.isLt))

/-- The mask of direction 0: 1 where column 0 of the attribute is not 0, else 0. -/
theorem v8_apply (x2 : (⟨S4000000x2, .f32⟩ : BufTy).Contents (Elt Ideal)) (e : Fin 4000000) :
    val_main_v8 (F := Ideal) x2 (ix1 e) = Cert.Spec.mask x2 0 e := by
  rw [val_main_v8_apply, val_main_v7_apply, val_main_v5_apply, val_main_v4_apply, val_main_v6_apply,
    val_main_cst_apply]
  have hidx : idx_main_v4 (idx_main_v5 (ix1 e)) = ix2 e (0 : Fin 2) := funext fun a => match a with
    | ⟨0, _⟩ => Fin.ext (Nat.div_one _)
    | ⟨1, _⟩ => Fin.ext rfl
  rw [hidx]
  rfl

/-- The mask of direction 1: 1 where column 1 of the attribute is not 0, else 0. -/
theorem v13_apply (x2 : (⟨S4000000x2, .f32⟩ : BufTy).Contents (Elt Ideal)) (e : Fin 4000000) :
    val_main_v13 (F := Ideal) x2 (ix1 e) = Cert.Spec.mask x2 1 e := by
  rw [val_main_v13_apply, val_main_v12_apply, val_main_v10_apply, val_main_v9_apply, val_main_v11_apply,
    val_main_cst_0_apply]
  have hidx : idx_main_v9 (idx_main_v10 (ix1 e)) = ix2 e (1 : Fin 2) := funext fun a => match a with
    | ⟨0, _⟩ => Fin.ext (Nat.div_one _)
    | ⟨1, _⟩ => Fin.ext rfl
  rw [hidx]
  rfl

/-! ## One gather: the table at the wrapped, clamped id and a constant column -/

/-- An id vector with its negative ids moved up by the number of nodes. -/
def wrapV (v : IVec S4000000 32) : IVec S4000000 32 :=
  select (cmpi .slt v (broadcastInDim S4000000 ![] bcast_S_S4000000 (constantI S_ 32 0#32)))
    (addi v (broadcastInDim S4000000 ![] bcast_S_S4000000 (constantI S_ 32 1000000#32))) v

theorem wrapV_apply (v : IVec S4000000 32) (i : S4000000.Idx) : wrapV v i = Cert.Spec.wrap (v i) := rfl

/-- The start indices of the element gather: per edge the pair (wrapped id, c). -/
def startV (v : IVec S4000000 32) (c : BitVec 32) : IVec S4000000x2 32 :=
  concatenate S4000000x2 1
    [⟨S4000000x1, broadcastInDim S4000000x1 ![0] bcast_S4000000_S4000000x1_0 (wrapV v)⟩,
     ⟨S4000000x1, broadcastInDim S4000000x1 ![0] bcast_S4000000_S4000000x1_0
        (id (broadcastInDim S4000000 ![] bcast_S_S4000000 (constantI S_ 32 c)))⟩]
    concatenates_S4000000x1_S4000000x1_S4000000x2_d1

theorem startV_row (v : IVec S4000000 32) (c : BitVec 32) (e : Fin 4000000) :
    startV v c (pairIdx e 0) = Cert.Spec.wrap (v (ix1 e)) := by
  unfold startV
  refine (concat_col0 _ _ e).trans ?_
  refine (bcastCol_apply _ e 0).trans ?_
  rfl

theorem startV_col (v : IVec S4000000 32) (c : BitVec 32) (e : Fin 4000000) :
    startV v c (pairIdx e 1) = c := by
  unfold startV
  refine (concat_col1 _ _ e).trans ?_
  refine (bcastCol_apply _ e 0).trans ?_
  rfl

/-- The element gather of the program is the generic one of the library. -/
theorem gather_eq : gather_S1000000x2_S4000000x2_S4000000_n_01_n_n_01_1_11 = elemGather 1000000 4000000 2 gather_S1000000x2_S4000000x2_S4000000_n_01_n_n_01_1_11_wf := rfl

/-- The table gathered at the ids v (wrapped) and the constant column c. -/
def gatherV (x0 : FVec Ideal S1000000x2 .f32) (v : IVec S4000000 32) (c : BitVec 32) : FVec Ideal S4000000 .f32 :=
  Host.gather gather_S1000000x2_S4000000x2_S4000000_n_01_n_n_01_1_11 x0 (startV v c)

/-- The gather at edge e: the table at the row the id of e reads and the column c clamps to. -/
theorem gatherV_apply (x0 : FVec Ideal S1000000x2 .f32) (v : IVec S4000000 32) (c : BitVec 32) (col : Fin 2)
    (hc : min c.toInt.toNat 1 = col.val) (e : Fin 4000000) :
    gatherV x0 v c (ix1 e) = x0 (ix2 (Cert.Spec.row (v (ix1 e))) col) := by
  unfold gatherV
  rw [gather_eq]
  refine (gather_elem_apply (by omega) (by omega) gather_S1000000x2_S4000000x2_S4000000_n_01_n_n_01_1_11_wf x0 (startV v c) e).trans ?_
  refine congrArg x0 (congrArg₂ ix2 (Fin.ext ?_) (Fin.ext ?_))
  · show min (startV v c (pairIdx e 0)).toInt.toNat (1000000 - 1) = (Cert.Spec.row (v (ix1 e))).val
    rw [startV_row]
    rfl
  · show min (startV v c (pairIdx e 1)).toInt.toNat (2 - 1) = col.val
    rw [startV_col]
    exact hc

/-! ## One result -/

/-- The per-edge term: the difference of the table along the edge, in column c, times the mask m. -/
def termV (x0 : (⟨S1000000x2, .f32⟩ : BufTy).Contents (Elt Ideal)) (x1 : (⟨S2x4000000, .i32⟩ : BufTy).Contents (Elt Ideal)) (c : BitVec 32) (m : FVec Ideal S4000000 .f32) : FVec Ideal S4000000 .f32 :=
  mulf (subf (gatherV x0 (val_main_v3 (F := Ideal) x1) c) (gatherV x0 (val_main_v1 (F := Ideal) x1) c)) m

theorem termV_apply (x0 : (⟨S1000000x2, .f32⟩ : BufTy).Contents (Elt Ideal)) (x1 : (⟨S2x4000000, .i32⟩ : BufTy).Contents (Elt Ideal)) (x2 : (⟨S4000000x2, .f32⟩ : BufTy).Contents (Elt Ideal)) (c : BitVec 32) (m : FVec Ideal S4000000 .f32) (col a : Fin 2)
    (hc : min c.toInt.toNat 1 = col.val) (hm : ∀ e : Fin 4000000, m (ix1 e) = Cert.Spec.mask x2 a e)
    (e : Fin 4000000) : termV x0 x1 c m (ix1 e) = Cert.Spec.term x0 x1 x2 col a e := by
  unfold termV
  rw [mulf_apply, subf_apply, gatherV_apply x0 _ c col hc e, gatherV_apply x0 _ c col hc e, v3_apply, v1_apply, hm e]
  rfl

/-- The scatter-add of the program is the generic vector one of the library. -/
theorem scatterV_apply (z : FVec Ideal S1000000 .f32) (ids : IVec S4000000x1 32) (u : FVec Ideal S4000000 .f32)
    (k : Fin 1000000) :
    Host.scatterAdd scatter_S1000000_S4000000x1_S4000000_n_0_0_1 z ids u (ix1 k)
      = z (ix1 k) + ∑ e : Fin 4000000, if (ids (colIdx e)).toInt = (k.val : Int) then u (ix1 e) else 0 :=
  hostScatterAdd_vec_apply scatter_S1000000_S4000000x1_S4000000_n_0_0_1_wf z ids u k

/-- One result of the reference, for the column constant c and the mask vector m. -/
def resV (x0 : (⟨S1000000x2, .f32⟩ : BufTy).Contents (Elt Ideal)) (x1 : (⟨S2x4000000, .i32⟩ : BufTy).Contents (Elt Ideal)) (c : BitVec 32) (m : FVec Ideal S4000000 .f32) : FVec Ideal S1000000 .f32 :=
  Host.divf
    (Host.scatterAdd scatter_S1000000_S4000000x1_S4000000_n_0_0_1
      (broadcastInDim S1000000 ![] bcast_S_S1000000 (constant (F := Ideal) S_ .f32 0x00000000#32))
      (broadcastInDim S4000000x1 ![0] bcast_S4000000_S4000000x1_0 (val_main_v1 (F := Ideal) x1))
      (termV x0 x1 c m))
    (broadcastInDim S1000000 ![] bcast_S_S1000000 (constant (F := Ideal) S_ .f32 0x38D1B717#32))

/-- One result is the specification at the column c clamps to and the direction m masks. -/
theorem resV_eq (x0 : (⟨S1000000x2, .f32⟩ : BufTy).Contents (Elt Ideal)) (x1 : (⟨S2x4000000, .i32⟩ : BufTy).Contents (Elt Ideal)) (x2 : (⟨S4000000x2, .f32⟩ : BufTy).Contents (Elt Ideal)) (c : BitVec 32) (m : FVec Ideal S4000000 .f32) (col a : Fin 2)
    (hc : min c.toInt.toNat 1 = col.val) (hm : ∀ e : Fin 4000000, m (ix1 e) = Cert.Spec.mask x2 a e) :
    resV x0 x1 c m = Cert.Spec.G x0 x1 x2 col a := by
  funext n
  obtain ⟨k, rfl⟩ : ∃ k : Fin 1000000, n = ix1 k := ⟨n 0, eq_ix1 n⟩
  unfold resV
  refine (congrArg₂ Ideal.div (scatterV_apply _ _ _ k) (bcast0N_apply _ (ix1 k))).trans ?_
  rw [bcast0N_apply]
  unfold Cert.Spec.G
  refine congrArg₂ Ideal.div (congrArg₂ (· + ·) rfl (Finset.sum_congr rfl fun e _ => ?_)) rfl
  rw [bcastCol_apply, v1_apply, termV_apply x0 x1 x2 c m col a hc hm e]

/-! ## The four results -/

theorem val_v42 (x0 : (⟨S1000000x2, .f32⟩ : BufTy).Contents (Elt Ideal)) (x1 : (⟨S2x4000000, .i32⟩ : BufTy).Contents (Elt Ideal)) (x2 : (⟨S4000000x2, .f32⟩ : BufTy).Contents (Elt Ideal)) :
    Read.val_main_v42 (F := Ideal) x0 x1 x2 = Cert.Spec.G x0 x1 x2 0 0 :=
  (show Read.val_main_v42 (F := Ideal) x0 x1 x2 = resV x0 x1 0#32 (val_main_v8 (F := Ideal) x2) from rfl).trans
    (resV_eq x0 x1 x2 0#32 _ 0 0 (by decide) (v8_apply x2))

theorem val_v71 (x0 : (⟨S1000000x2, .f32⟩ : BufTy).Contents (Elt Ideal)) (x1 : (⟨S2x4000000, .i32⟩ : BufTy).Contents (Elt Ideal)) (x2 : (⟨S4000000x2, .f32⟩ : BufTy).Contents (Elt Ideal)) :
    Read.val_main_v71 (F := Ideal) x0 x1 x2 = Cert.Spec.G x0 x1 x2 1 0 :=
  (show Read.val_main_v71 (F := Ideal) x0 x1 x2 = resV x0 x1 1#32 (val_main_v8 (F := Ideal) x2) from rfl).trans
    (resV_eq x0 x1 x2 1#32 _ 1 0 (by decide) (v8_apply x2))

theorem val_v100 (x0 : (⟨S1000000x2, .f32⟩ : BufTy).Contents (Elt Ideal)) (x1 : (⟨S2x4000000, .i32⟩ : BufTy).Contents (Elt Ideal)) (x2 : (⟨S4000000x2, .f32⟩ : BufTy).Contents (Elt Ideal)) :
    Read.val_main_v100 (F := Ideal) x0 x1 x2 = Cert.Spec.G x0 x1 x2 1 1 :=
  (show Read.val_main_v100 (F := Ideal) x0 x1 x2 = resV x0 x1 1#32 (val_main_v13 (F := Ideal) x2) from rfl).trans
    (resV_eq x0 x1 x2 1#32 _ 1 1 (by decide) (v13_apply x2))

theorem val_v129 (x0 : (⟨S1000000x2, .f32⟩ : BufTy).Contents (Elt Ideal)) (x1 : (⟨S2x4000000, .i32⟩ : BufTy).Contents (Elt Ideal)) (x2 : (⟨S4000000x2, .f32⟩ : BufTy).Contents (Elt Ideal)) :
    Read.val_main_v129 (F := Ideal) x0 x1 x2 = Cert.Spec.G x0 x1 x2 0 1 :=
  (show Read.val_main_v129 (F := Ideal) x0 x1 x2 = resV x0 x1 0#32 (val_main_v13 (F := Ideal) x2) from rfl).trans
    (resV_eq x0 x1 x2 0#32 _ 0 1 (by decide) (v13_apply x2))

end Cert.ReferenceIdeal.RefValue

end
-- ==== Proof.lean ====
/-
  The proof of Cert.Claim: the kernel and its reference compute one function of the node table, the edge ids and the
  edge attributes.

  THE MATHEMATICS. For a column col of the node table x and a direction a of the edge attribute, both programs end with

      out[n] = (0 + sum over the edges e whose source id is n of (x[dst e, col] - x[src e, col]) * [attr[e, a] != 0]) / delta

  for (col, a) = (0, 0), (1, 0), (1, 1), (0, 1) (Proof/Spec.lean). The reference computes each of the four by two
  gathers of single elements, a product with the mask and a scatter-add of a vector. The kernel gathers whole rows of
  x at the sources and at the destinations, computes in one region, block of 8000 edges by block, the four masked
  differences of every edge as the columns of one payload array, adds the rows of that array into the nodes with one
  scatter-add, divides and cuts the four columns. At the ideal instance a scatter-add is an exact sum, so the only
  laws used are: a sum over (edge, column) pairs landing at (n, k) is the sum over the edges landing at n of column
  k; a gather of rows read at a column is the gather of that element; and the product of the mask and the difference
  commutes. No law needs finiteness, so the precondition is not opened.

  The three frames are the generated ones (the reference's is its generated run with the results dropped); the
  idealization rewrote nothing, so preserves is trivial.
-/
import proofs.«425213_j50130858279309_3_alg».proof.Defs
import proofs.«425213_j50130858279309_3_alg».proof.Proof.Gen.Kernel
import proofs.«425213_j50130858279309_3_alg».proof.Proof.Gen.Kernel.Skeleton
import proofs.«425213_j50130858279309_3_alg».proof.Proof.Gen.Kernel.Launch
import proofs.«425213_j50130858279309_3_alg».proof.Proof.Gen.Kernel.Points
import proofs.«425213_j50130858279309_3_alg».proof.Proof.Gen.Kernel.Frame
import proofs.«425213_j50130858279309_3_alg».proof.Proof.Gen.KernelIdeal
import proofs.«425213_j50130858279309_3_alg».proof.Proof.Gen.KernelIdeal.Skeleton
import proofs.«425213_j50130858279309_3_alg».proof.Proof.Gen.KernelIdeal.Launch
import proofs.«425213_j50130858279309_3_alg».proof.Proof.Gen.KernelIdeal.Points
import proofs.«425213_j50130858279309_3_alg».proof.Proof.Gen.KernelIdeal.Frame
import proofs.«425213_j50130858279309_3_alg».proof.Proof.Gen.ReferenceIdeal
import proofs.«425213_j50130858279309_3_alg».proof.Proof.Gen.ReferenceIdeal.Run
import proofs.«425213_j50130858279309_3_alg».proof.Proof.Gen.ReferenceIdeal.Read
import proofs.«425213_j50130858279309_3_alg».proof.Proof.Gen.Pre_finite_inputs
import proofs.«425213_j50130858279309_3_alg».proof.Proof.KernelRun
import proofs.«425213_j50130858279309_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2.2) (Cert.ReferenceIdeal.Value.run (F := Ideal) m ρ)

/-- Both runs end with each result at the specification's function of the arguments: the kernel's by its run read
    through the region and the host lines around it, the reference's by its run read one operation at a time; the
    arguments agree, so the results do. -/
theorem algebraic : Cert.algebraic_KernelIdeal_ReferenceIdeal := by
  intro m ρ m' ρ' _ hagree
  refine ⟨_, _, _, _, Cert.KernelIdeal.KRun.run m ρ, ?_⟩
  refine (θ_run Cert.ReferenceIdeal.defs _ _).mono (fun _ h c => ⟨?_, ?_, ?_, ?_, (h c).2.2.2.2.1, (h c).2.2.2.2.2.1, (h c).2.2.2.2.2.2⟩)
    (Cert.ReferenceIdeal.Value.run (F := Ideal) m' ρ')
  · rw [(h c).1, Cert.ReferenceIdeal.Read.val_main_v42_eq, Cert.ReferenceIdeal.RefValue.val_v42,
      (hagree c).1, (hagree c).2.1, (hagree c).2.2]
  · rw [(h c).2.1, Cert.ReferenceIdeal.Read.val_main_v71_eq, Cert.ReferenceIdeal.RefValue.val_v71,
      (hagree c).1, (hagree c).2.1, (hagree c).2.2]
  · rw [(h c).2.2.1, Cert.ReferenceIdeal.Read.val_main_v100_eq, Cert.ReferenceIdeal.RefValue.val_v100,
      (hagree c).1, (hagree c).2.1, (hagree c).2.2]
  · rw [(h c).2.2.2.1, Cert.ReferenceIdeal.Read.val_main_v129_eq, Cert.ReferenceIdeal.RefValue.val_v129,
      (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
